-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16 : Shape := ⟨2, ![4096, 16]⟩
abbrev S16 : Shape := ⟨1, ![16]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4096x16 .f32) (main_arg1 : FVec F S16 .f32) : IVec S_ 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_c : IVec S_ 1 := constantI S_ 1 1#1
  let main_v3 : IVec S_ 1 := (fun x v => Host.reduce IntOp.andi x v reducesTo_S4096x16_S_d0_1 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S4096x16 : Shape := ⟨2, ![4096, 16]⟩
abbrev S16 : Shape := ⟨1, ![16]⟩
abbrev S1x16 : Shape := ⟨2, ![1, 16]⟩
abbrev S1024x16 : Shape := ⟨2, ![1024, 16]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x16, .f32⟩
  | .hbm, ⟨1, _⟩ => ⟨S16, .f32⟩
  | .hbm, ⟨2, _⟩ => ⟨S1x16, .f32⟩
  | .hbm, ⟨3, _⟩ => ⟨S4096x16, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1x16, .f32⟩
  | .local _ .vmem, ⟨5, _⟩ => ⟨S1024x16, .f32⟩
  | .local _ .vmem, ⟨6, _⟩ => ⟨S1024x16, .f32⟩
  | .local _ .vmem, ⟨7, _⟩ => ⟨S1024x1, .f32⟩
  | .local _ .vmem, ⟨8, _⟩ => ⟨S1024x16, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16_S1x16 : S16.ShapeCasts S1x16
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  reduces_S1024x16_S1024 : S1024x16.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  broadcasts_S1024x1_S1024x16 : S1024x1.Broadcasts S1024x16
  dot_S1024x16_S1024x16_S1024x1024_1_1_0_0_n_n_wf : DotDims.WF S1024x16 S1024x16 S1024x1024 [1] [1] [0] [0] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S4096x16.size a
  hwx0_0 : ∀ i : grid0.Coords, EltTy.bits .f32 = 32 ∨ (Rect.block (s := S4096x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)

variable [Facts₀]

def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x16 : Shape := ⟨2, ![4096, 16]⟩
abbrev S16 : Shape := ⟨1, ![16]⟩
abbrev S4096x1x16 : Shape := ⟨3, ![4096, 1, 16]⟩
abbrev S1x4096x16 : Shape := ⟨3, ![1, 4096, 16]⟩
abbrev S4096x4096x16 : Shape := ⟨3, ![4096, 4096, 16]⟩
abbrev S_ : Shape := ⟨0, ![]⟩
abbrev S4096x4096 : Shape := ⟨2, ![4096, 4096]⟩
abbrev S1x16 : Shape := ⟨2, ![1, 16]⟩
abbrev S4096x4096x1 : Shape := ⟨3, ![4096, 4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S16, .f32⟩
  | .hbm, ⟨2, _⟩ => ⟨S4096x1x16, .f32⟩
  | .hbm, ⟨3, _⟩ => ⟨S1x4096x16, .f32⟩
  | .hbm, ⟨4, _⟩ => ⟨S4096x4096x16, .f32⟩
  | .hbm, ⟨5, _⟩ => ⟨S4096x4096x16, .f32⟩
  | .hbm, ⟨6, _⟩ => ⟨S4096x4096x16, .f32⟩
  | .hbm, ⟨7, _⟩ => ⟨S4096x4096x16, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S_, .f32⟩
  | .hbm, ⟨21, _⟩ => ⟨S4096x4096x16, .f32⟩
  | .hbm, ⟨22, _⟩ => ⟨S4096x4096x16, .f32⟩
  | .hbm, ⟨23, _⟩ => ⟨S4096x4096x16, .f32⟩
  | .hbm, ⟨24, _⟩ => ⟨S4096x4096x1, .f32⟩
  | .hbm, ⟨25, _⟩ => ⟨S4096x4096x16, .f32⟩
  | .hbm, ⟨26, _⟩ => ⟨S4096x4096x16, .f32⟩
  | .hbm, ⟨27, _⟩ => ⟨S_, .f32⟩
  | .hbm, ⟨28, _⟩ => ⟨S4096x16, .f32⟩
  | .hbm, ⟨29, _⟩ => ⟨S4096x16, .f32⟩
  | .hbm, ⟨30, _⟩ => ⟨S_, .f32⟩
  | .hbm, ⟨31, _⟩ => ⟨S4096x16, .f32⟩
  | .hbm, ⟨32, _⟩ => ⟨S4096x16, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  bcast_S4096x16_S4096x1x16_0_2 : S4096x16.BroadcastsInDim S4096x1x16 (![0, 2] : Fin 2 → Fin S4096x1x16.rank)
  bcast_S4096x16_S1x4096x16_1_2 : S4096x16.BroadcastsInDim S1x4096x16 (![1, 2] : Fin 2 → Fin S1x4096x16.rank)
  bcast_S4096x1x16_S4096x4096x16_0_1_2 : S4096x1x16.BroadcastsInDim S4096x4096x16 (![0, 1, 2] : Fin 3 → Fin S4096x4096x16.rank)
  bcast_S1x4096x16_S4096x4096x16_0_1_2 : S1x4096x16.BroadcastsInDim S4096x4096x16 (![0, 1, 2] : Fin 3 → Fin S4096x4096x16.rank)
  reducesTo_S4096x4096x16_S4096x4096_d2 : S4096x4096x16.ReducesTo [2] S4096x4096
  h_S_ : 0 < S_.numel
  bcast_S_S4096x4096 : S_.BroadcastsInDim S4096x4096 (![] : Fin 0 → Fin S4096x4096.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x4096x16 : S_.BroadcastsInDim S4096x4096x16 (![] : Fin 0 → Fin S4096x4096x16.rank)
  bcast_S4096x4096_S4096x4096x1_0_1 : S4096x4096.BroadcastsInDim S4096x4096x1 (![0, 1] : Fin 2 → Fin S4096x4096x1.rank)
  bcast_S4096x4096x1_S4096x4096x16_0_1_2 : S4096x4096x1.BroadcastsInDim S4096x4096x16 (![0, 1, 2] : Fin 3 → Fin S4096x4096x16.rank)
  reducesTo_S4096x4096x16_S4096x16_d0 : S4096x4096x16.ReducesTo [0] S4096x16
  bcast_S_S4096x16 : S_.BroadcastsInDim S4096x16 (![] : Fin 0 → Fin S4096x16.rank)
  dot_S4096x4096_S4096x16_S4096x16_1_0_0_1_n_n_wf : DotDims.WF S4096x4096 S4096x16 S4096x16 [1] [0] [0] [1] [] []

variable [Facts₀]

def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.BBody.lean ====
/-
  The kernel body at a symbolic grid point. The grid is 4 row tiles × 4 column tiles; at point (i, j) the body,
  if j = 0, zeroes its two scratch accumulators (a [1024, 1] row sum and a [1024, 16] weighted sum); computes the
  weight tile of row tile i against column tile j; adds the tile's row sums and its weights times the column tile
  into the accumulators; and, if j = 3, combines the accumulators with the row tile and μ into the output block.
  Three runs, one per kind of point (first / middle / last column tile), each from the two input blocks at their
  contents, the accumulators at theirs, and each leaving the accumulators at the step's values; a last step also
  leaves the output buffer at the combined block. The stored values are the generated payload terms; whole-block
  loads and stores at offset zero collapse to the payloads themselves (proved where the values are read).
-/
import proofs.«151449_j48387101557205_1_alg».proof.Proof.Gen.Kernel
import proofs.«151449_j48387101557205_1_alg».proof.Proof.Gen.Kernel.Skeleton
import proofs.«151449_j48387101557205_1_alg».proof.Proof.Gen.Kernel.Launch
import Idealize.ShloMosaic.Lib.Writes
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rsM : Memref sig .tc .vmem S1024x1 .f32 := Memref.whole cc0_scratch0
abbrev ptM : Memref sig .tc .vmem S1024x16 .f32 := Memref.whole cc0_scratch1
abbrev r1 : Rect S1024x1 := Rect.unit (s := S1024x1) ![0, 0] S1024x1.size inb_S1024x1_S1024x1_0_0
abbrev r16 : Rect S1024x16 := Rect.unit (s := S1024x16) ![0, 0] S1024x16.size inb_S1024x16_S1024x16_0_0
abbrev rmu : Rect S1x16 := Rect.unit (s := S1x16) ![0, 0] S1x16.size inb_S1x16_S1x16_0_0

abbrev IsFirst (t : Fin cfg0.N) : Prop := Scalar.cmpi .ne (Scalar.extui (Scalar.cmpi .eq (BitVec.ofNat 32 ((grid0.coords t) 1).val) 0#32)) 0#32 = 1#1
abbrev IsLast (t : Fin cfg0.N) : Prop := k0_cond2 (grid0.coords t) = 1#1

/-! ## What each kind of step leaves -/

/-- The accumulators after a middle or last step, from contents `a`, `p` and the blocks `x0` (rows), `x1` (columns). -/
abbrev rsStep (a : Vec F S1024x1 .f32) (x0 x1 : Vec F S1024x16 .f32) : Vec F S1024x1 .f32 :=
  View.canon [⟨r1, k0_pay6 (View.ld x0 r16) (View.ld x1 r16) (View.ld a r1)⟩]
abbrev ptStep (p : Vec F S1024x16 .f32) (x0 x1 : Vec F S1024x16 .f32) : Vec F S1024x16 .f32 :=
  View.canon [⟨r16, k0_pay1 (k0_pay7 (View.ld x0 r16) (View.ld x1 r16) (View.ld p r16))⟩]
/-- After a first step: zeroed, then the step taken from the zeros read back. -/
abbrev rsFirst (x0 x1 : Vec F S1024x16 .f32) : Vec F S1024x1 .f32 :=
  View.canon [⟨r1, k0_pay6 (View.ld x0 r16) (View.ld x1 r16) (rsM.view.readCov [⟨r1, k0_pay3⟩] r1.toLoadRect)⟩, ⟨r1, k0_pay3⟩]
abbrev ptFirst (x0 x1 : Vec F S1024x16 .f32) : Vec F S1024x16 .f32 :=
  View.canon [⟨r16, k0_pay1 (k0_pay7 (View.ld x0 r16) (View.ld x1 r16) (ptM.view.readCov [⟨r16, k0_pay4⟩] r16.toLoadRect))⟩, ⟨r16, k0_pay4⟩]
/-- The output block a last step stores: the accumulators read back through the step's stores, with the rows and μ. -/
abbrev outLast (a : Vec F S1024x1 .f32) (p : Vec F S1024x16 .f32) (x0 x1 : Vec F S1024x16 .f32) (x2 : Vec F S1x16 .f32) : Vec F S1024x16 .f32 :=
  View.canon [⟨r16, k0_pay2 (View.ld x0 r16) (View.ld x2 rmu)
    (rsM.view.readCov [⟨r1, k0_pay6 (View.ld x0 r16) (View.ld x1 r16) (View.ld a r1)⟩] r1.toLoadRect)
    (ptM.view.readCov [⟨r16, k0_pay1 (k0_pay7 (View.ld x0 r16) (View.ld x1 r16) (View.ld p r16))⟩] r16.toLoadRect)⟩]

omit [FloatOps F] in
theorem cover1_1 (q : Vec F S1024x1 .f32) (y : S1024x1.Idx) : ∃ pc ∈ ([⟨r1, q⟩] : List (View.Piece (Elt F) S1024x1 .f32)), y ∈ pc.1.set :=
  View.cover_of_tiled [⟨r1, q⟩] S1024x1.size (by rfl) y
omit [FloatOps F] in
theorem cover1_2 (q q' : Vec F S1024x1 .f32) (y : S1024x1.Idx) : ∃ pc ∈ ([⟨r1, q⟩, ⟨r1, q'⟩] : List (View.Piece (Elt F) S1024x1 .f32)), y ∈ pc.1.set :=
  View.cover_of_tiled [⟨r1, q⟩, ⟨r1, q'⟩] S1024x1.size (by rfl) y
omit [FloatOps F] in
theorem cover16_1 (q : Vec F S1024x16 .f32) (y : S1024x16.Idx) : ∃ pc ∈ ([⟨r16, q⟩] : List (View.Piece (Elt F) S1024x16 .f32)), y ∈ pc.1.set :=
  View.cover_of_tiled [⟨r16, q⟩] S1024x16.size (by rfl) y
omit [FloatOps F] in
theorem cover16_2 (q q' : Vec F S1024x16 .f32) (y : S1024x16.Idx) : ∃ pc ∈ ([⟨r16, q⟩, ⟨r16, q'⟩] : List (View.Piece (Elt F) S1024x16 .f32)), y ∈ pc.1.set :=
  View.cover_of_tiled [⟨r16, q⟩, ⟨r16, q'⟩] S1024x16.size (by rfl) y

section Runs

variable (c : Dev nD) (t : Fin cfg0.N)
  (M0 : Memref sig .tc .vmem S1024x16 .f32) (h0 : M0.IsWhole) (M1 : Memref sig .tc .vmem S1024x16 .f32) (h1 : M1.IsWhole)
  (M2 : Memref sig .tc .vmem S1x16 .f32) (h2 : M2.IsWhole) (M3 : Memref sig .tc .vmem S1024x16 .f32) (h3 : M3.IsWhole)
  (x0 x1 : Vec F S1024x16 .f32) (x2 : Vec F S1x16 .f32) (a : Vec F S1024x1 .f32) (p : Vec F S1024x16 .f32)

local notation "BODY" => cc0__svgd_kernel (grid0.coords t) M0 h0 M1 h1 M2 h2 M3 h3 (Memref.whole cc0_scratch0) (Memref.isWhole_whole _) (Memref.whole cc0_scratch1) (Memref.isWhole_whole _)

/-- A first step (j = 0): the accumulators, whatever they held, end at the first-step values; μ's buffer and the
    output's are not touched (`O`). -/
theorem run_first (hF : IsFirst t) (hL : ¬ IsLast t) (O : sProp 𝕄) (Q : PUnit → sProp 𝕄) :
    iprop(owns (c : Thread nD τ) M0 fullShare x0 ∗ owns (c : Thread nD τ) M1 fullShare x1 ∗ O
      ∗ (∃ a, owns (c : Thread nD τ) rsM fullShare a) ∗ (∃ p, owns (c : Thread nD τ) ptM fullShare p)
      ∗ (iprop(owns (c : Thread nD τ) M0 fullShare x0 ∗ owns (c : Thread nD τ) M1 fullShare x1 ∗ O
          ∗ owns (c : Thread nD τ) rsM fullShare (rsFirst x0 x1) ∗ owns (c : Thread nD τ) ptM fullShare (ptFirst x0 x1)) -∗ Q ⟨⟩))
      ⊢ wp frame (wpE (defs₀ (F := F)) Variants.none c none) Set.univ BODY Q := by
  unfold owns
  iintro ⟨⟨%f0, %hf0, H0⟩, ⟨%f1, %hf1, H1⟩, HO, ⟨%a', %fa, %hfa, Ha⟩, ⟨%p', %fp, %hfp, Hp⟩, Hk⟩
  subst hf0 hf1
  sl_exec! (disch := assumption)
  sl_step
  iapply Hk
  isplitl [H0]; · iexists f0; isplitr; (· ipureintro; rfl); iexact H0
  isplitl [H1]; · iexists f1; isplitr; (· ipureintro; rfl); iexact H1
  isplitl [HO]; · iexact HO
  isplitl [Ha]
  · iexists _; isplitr; swap; (· iexact Ha); ipureintro; exact View.read_writes_eq_canon _ _ _ (cover1_2 _ _)
  · iexists _; isplitr; swap; (· iexact Hp); ipureintro; exact View.read_writes_eq_canon _ _ _ (cover16_2 _ _)

/-- A middle step: the accumulators at `a`, `p` end at the step's values; μ's buffer and the output's are not touched. -/
theorem run_mid (hF : ¬ IsFirst t) (hL : ¬ IsLast t) (O : sProp 𝕄) (Q : PUnit → sProp 𝕄) :
    iprop(owns (c : Thread nD τ) M0 fullShare x0 ∗ owns (c : Thread nD τ) M1 fullShare x1 ∗ O
      ∗ owns (c : Thread nD τ) rsM fullShare a ∗ owns (c : Thread nD τ) ptM fullShare p
      ∗ (iprop(owns (c : Thread nD τ) M0 fullShare x0 ∗ owns (c : Thread nD τ) M1 fullShare x1 ∗ O
          ∗ owns (c : Thread nD τ) rsM fullShare (rsStep a x0 x1) ∗ owns (c : Thread nD τ) ptM fullShare (ptStep p x0 x1)) -∗ Q ⟨⟩))
      ⊢ wp frame (wpE (defs₀ (F := F)) Variants.none c none) Set.univ BODY Q := by
  unfold owns
  iintro ⟨⟨%f0, %hf0, H0⟩, ⟨%f1, %hf1, H1⟩, HO, ⟨%fa, %hfa, Ha⟩, ⟨%fp, %hfp, Hp⟩, Hk⟩
  subst hf0 hf1 hfa hfp
  sl_exec! (disch := assumption)
  sl_step
  iapply Hk
  isplitl [H0]; · iexists f0; isplitr; (· ipureintro; rfl); iexact H0
  isplitl [H1]; · iexists f1; isplitr; (· ipureintro; rfl); iexact H1
  isplitl [HO]; · iexact HO
  isplitl [Ha]
  · iexists _; isplitr; swap; (· iexact Ha); ipureintro; exact View.read_writes_eq_canon _ _ _ (cover1_1 _)
  · iexists _; isplitr; swap; (· iexact Hp); ipureintro; exact View.read_writes_eq_canon _ _ _ (cover16_1 _)

/-- A last step (j = 3): the accumulators end at the step's values and the output's buffer, whatever it held, at the
    combined block; μ's buffer is read and kept. -/
theorem run_last (hF : ¬ IsFirst t) (hL : IsLast t) (Q : PUnit → sProp 𝕄) :
    iprop(owns (c : Thread nD τ) M0 fullShare x0 ∗ owns (c : Thread nD τ) M1 fullShare x1 ∗ owns (c : Thread nD τ) M2 fullShare x2
      ∗ (∃ o, owns (c : Thread nD τ) M3 fullShare o)
      ∗ owns (c : Thread nD τ) rsM fullShare a ∗ owns (c : Thread nD τ) ptM fullShare p
      ∗ (iprop(owns (c : Thread nD τ) M0 fullShare x0 ∗ owns (c : Thread nD τ) M1 fullShare x1 ∗ owns (c : Thread nD τ) M2 fullShare x2
          ∗ owns (c : Thread nD τ) M3 fullShare (outLast a p x0 x1 x2)
          ∗ owns (c : Thread nD τ) rsM fullShare (rsStep a x0 x1) ∗ owns (c : Thread nD τ) ptM fullShare (ptStep p x0 x1)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%o, %f3, %hf3, H3⟩, ⟨%fa, %hfa, Ha⟩, ⟨%fp, %hfp, Hp⟩, Hk⟩
  subst hf0 hf1 hf2 hfa hfp
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]
  · iexists _; isplitr; swap; (· iexact H3); ipureintro; exact View.read_writes_eq_canon _ _ _ (cover16_1 _)
  isplitl [Ha]
  · iexists _; isplitr; swap; (· iexact Ha); ipureintro; exact View.read_writes_eq_canon _ _ _ (cover1_1 _)
  · iexists _; isplitr; swap; (· iexact Hp); ipureintro; exact View.read_writes_eq_canon _ _ _ (cover16_1 _)

end Runs

end Cert.Kernel.Hand

end
-- ==== Proof.BRun.lean ====
/-
  The pipeline's proof data and the launch. The grid's 16 points run row tile i = t / 4 against column tile
  j = t % 4. Between points the two scratch accumulators hold the row sums and the weighted sums over the column
  tiles seen so far in the current row tile (`rsA`, `ptA`, by recursion on the point: restarted at each j = 0);
  before a row tile's first point, and after the last point, they hold anything. The output window's buffer is
  written only at a row tile's last point, with the block `outAt`, and written back exactly there; elsewhere it
  passes through the body untouched. The particles' array is handed to the kernel through two input windows
  (row tile and column tile): its full share is split into two halves, one per window. μ's reshaped copy is the
  third input; μ itself bypasses the region.
-/
import proofs.«151449_j48387101557205_1_alg».proof.Proof.BBody
import proofs.«151449_j48387101557205_1_alg».proof.Proof.Gen.Kernel.Points
import Idealize.ShloMosaic.Lib.Pipeline.Frame
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The kinds of point -/

theorem N_sixteen : cfg0.N = 16 := N_0

/-- A point is a row tile's first iff its number is ≡ 0 (mod 4), its last iff ≡ 3. -/
theorem isFirst_iff : ∀ t : Fin cfg0.N, IsFirst t ↔ t.val % 4 = 0 :=
  (by decide +kernel : ∀ t : Fin grid0.N, (Scalar.cmpi .ne (Scalar.extui (Scalar.cmpi .eq (BitVec.ofNat 32 ((grid0.coords t) 1).val) 0#32)) 0#32 = 1#1) ↔ t.val % 4 = 0)
theorem isLast_iff : ∀ t : Fin cfg0.N, IsLast t ↔ t.val % 4 = 3 :=
  (by decide +kernel : ∀ t : Fin grid0.N, k0_cond2 (grid0.coords t) = 1#1 ↔ t.val % 4 = 3)

/-- The output window is idle except at a last point, and written back exactly there. -/
theorem idle3_of_last (t : Fin cfg0.N) (h : IsLast t) : idle0 3 (grid0.coords t) = false := by
  show (!(k0_cond2 (grid0.coords t) == 1#1)) = false; rw [show (k0_cond2 (grid0.coords t) == 1#1) = true from beq_iff_eq.mpr h]; rfl
theorem idle3_of_not_last (t : Fin cfg0.N) (h : ¬ IsLast t) : idle0 3 (grid0.coords t) = true := by
  show (!(k0_cond2 (grid0.coords t) == 1#1)) = true; rw [show (k0_cond2 (grid0.coords t) == 1#1) = false from beq_eq_false_iff_ne.mpr h]; rfl
theorem idle0_eq (t : Fin cfg0.N) : idle0 0 (grid0.coords t) = false := rfl
theorem idle1_eq (t : Fin cfg0.N) : idle0 1 (grid0.coords t) = false := rfl
theorem idle2_eq (t : Fin cfg0.N) : idle0 2 (grid0.coords t) = false := rfl
theorem flush3_of_last (t : Fin cfg0.N) (h : IsLast t) : (cfg0.win 3).flush t = true := (flush0_3 t).mpr ((isLast_iff t).mp h)
theorem flush3_of_not_last (t : Fin cfg0.N) (h : ¬ IsLast t) : (cfg0.win 3).flush t = false :=
  Bool.eq_false_iff.mpr fun hf => h ((isLast_iff t).mpr ((flush0_3 t).mp hf))

variable (m : (ℓ : Loc nD τ sig) → Buf (Elt F) ℓ) (ρ : Dev nD → PrngReg)

/-! ## @main up to the region -/

/-- Core `c`'s buffers when the region is entered: the launch contents after the one reshape of μ. -/
abbrev V (c : Dev nD) (b : Ref sig .tc) : Buf (Elt F) ((c : Thread nD τ).loc b) :=
  StableHlo.after (hostOps0 (F := F)) (fun b => m (c, b)) b

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub rfl fun c => main_chain c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile, the column tile and μ's row at point `t`, at their literal types. -/
abbrev xi (c : Dev nD) (t : Fin cfg0.N) : Vec F S1024x16 .f32 := iblk m c 0 t
abbrev xj (c : Dev nD) (t : Fin cfg0.N) : Vec F S1024x16 .f32 := iblk m c 1 t
abbrev mub (c : Dev nD) (t : Fin cfg0.N) : Vec F S1x16 .f32 := iblk m c 2 t

/-! ## The accumulators after each point -/

/-- The row-sum scratch after point `k`: restarted at the first point of a row tile, else stepped from the point before. -/
def rsA (c : Dev nD) : (k : ℕ) → k < cfg0.N → Vec F S1024x1 .f32
  | 0, hk => rsFirst (xi m c ⟨0, hk⟩) (xj m c ⟨0, hk⟩)
  | k + 1, hk => if (k + 1) % 4 = 0 then rsFirst (xi m c ⟨k + 1, hk⟩) (xj m c ⟨k + 1, hk⟩)
      else rsStep (rsA c k (Nat.lt_of_succ_lt hk)) (xi m c ⟨k + 1, hk⟩) (xj m c ⟨k + 1, hk⟩)
/-- The weighted-sum scratch after point `k`, likewise. -/
def ptA (c : Dev nD) : (k : ℕ) → k < cfg0.N → Vec F S1024x16 .f32
  | 0, hk => ptFirst (xi m c ⟨0, hk⟩) (xj m c ⟨0, hk⟩)
  | k + 1, hk => if (k + 1) % 4 = 0 then ptFirst (xi m c ⟨k + 1, hk⟩) (xj m c ⟨k + 1, hk⟩)
      else ptStep (ptA c k (Nat.lt_of_succ_lt hk)) (xi m c ⟨k + 1, hk⟩) (xj m c ⟨k + 1, hk⟩)

theorem rsA_first (c : Dev nD) (t : Fin cfg0.N) (h : t.val % 4 = 0) : rsA m c t.val t.isLt = rsFirst (xi m c t) (xj m c t) := by
  obtain ⟨k, hk⟩ := t
  cases k with
  | zero => rfl
  | succ k => show (if (k + 1) % 4 = 0 then _ else _) = _; rw [if_pos h]
theorem ptA_first (c : Dev nD) (t : Fin cfg0.N) (h : t.val % 4 = 0) : ptA m c t.val t.isLt = ptFirst (xi m c t) (xj m c t) := by
  obtain ⟨k, hk⟩ := t
  cases k with
  | zero => rfl
  | succ k => show (if (k + 1) % 4 = 0 then _ else _) = _; rw [if_pos h]
theorem rsA_step (c : Dev nD) (t : Fin cfg0.N) (h : t.val % 4 ≠ 0) (hp : t.val - 1 < cfg0.N) :
    rsA m c t.val t.isLt = rsStep (rsA m c (t.val - 1) hp) (xi m c t) (xj m c t) := by
  obtain ⟨k, hk⟩ := t
  cases k with
  | zero => exact absurd rfl h
  | succ k => show (if (k + 1) % 4 = 0 then _ else _) = _; rw [if_neg h]; rfl
theorem ptA_step (c : Dev nD) (t : Fin cfg0.N) (h : t.val % 4 ≠ 0) (hp : t.val - 1 < cfg0.N) :
    ptA m c t.val t.isLt = ptStep (ptA m c (t.val - 1) hp) (xi m c t) (xj m c t) := by
  obtain ⟨k, hk⟩ := t
  cases k with
  | zero => exact absurd rfl h
  | succ k => show (if (k + 1) % 4 = 0 then _ else _) = _; rw [if_neg h]; rfl

/-- The scratches BEFORE point `t`, at a point that is not a row tile's first: what the previous point left. -/
abbrev rsB (c : Dev nD) (t : Fin cfg0.N) (h : t.val % 4 ≠ 0) : Vec F S1024x1 .f32 :=
  rsA m c (t.val - 1) (by have := t.isLt; omega)
abbrev ptB (c : Dev nD) (t : Fin cfg0.N) (h : t.val % 4 ≠ 0) : Vec F S1024x16 .f32 :=
  ptA m c (t.val - 1) (by have := t.isLt; omega)

/-! ## The proof data -/

/-- The invariant before point `k` (k = 0 … 16): the scratches at anything before a row tile's first point and after the
    last point, else at what the previous point left. -/
def Φv (c : Dev nD) (k : Fin (cfg0.N + 1)) : sProp 𝕄 :=
  if h : k.val % 4 = 0 then iprop((∃ a, owns (c : Thread nD τ) rsM fullShare a) ∗ ∃ p, owns (c : Thread nD τ) ptM fullShare p)
  else iprop(owns (c : Thread nD τ) rsM fullShare (rsA m c (k.val - 1) (by have := k.isLt; omega))
    ∗ owns (c : Thread nD τ) ptM fullShare (ptA m c (k.val - 1) (by have := k.isLt; omega)))

/-- The block a point leaves in the output's staging buffer — read only at a last point, where it is `outLast` of the
    scratches before the point and the three input blocks. -/
def outAt (c : Dev nD) (t : Fin cfg0.N) : Vec F S1024x16 .f32 :=
  if h : t.val % 4 = 0 then k0_pay4 else outLast (rsB m c t h) (ptB m c t h) (xi m c t) (xj m c t) (mub m c t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ k := Φv m c k
  q w := match w with
    | ⟨0, _⟩ => fullShare.left
    | ⟨1, _⟩ => fullShare.right
    | ⟨2, _⟩ => fullShare
    | ⟨3, _⟩ => fullShare
  owed _ := 0

abbrev 𝒱₀ : Variants := Variants.none

/-- Each input window's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; dsimp only [dats]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; dsimp only [dats]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; dsimp only [dats]; rfl)
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before and after point `t`, by the point's kind. -/
theorem Φ_pre_first (c : Dev nD) (t : Fin cfg0.N) (h : t.val % 4 = 0) :
    (dats m 0 c).Φ t.castSucc = iprop((∃ a, owns (c : Thread nD τ) rsM fullShare a) ∗ ∃ p, owns (c : Thread nD τ) ptM fullShare p) := by
  show Φv m c _ = _; unfold Φv; rw [dif_pos (by exact h)]
theorem Φ_pre_other (c : Dev nD) (t : Fin cfg0.N) (h : t.val % 4 ≠ 0) :
    (dats m 0 c).Φ t.castSucc = iprop(owns (c : Thread nD τ) rsM fullShare (rsB m c t h) ∗ owns (c : Thread nD τ) ptM fullShare (ptB m c t h)) := by
  show Φv m c _ = _; unfold Φv; rw [dif_neg (by exact h)]; rfl
theorem Φ_post_last (c : Dev nD) (t : Fin cfg0.N) (h : t.val % 4 = 3) :
    (dats m 0 c).Φ t.succ = iprop((∃ a, owns (c : Thread nD τ) rsM fullShare a) ∗ ∃ p, owns (c : Thread nD τ) ptM fullShare p) := by
  show Φv m c _ = _; unfold Φv; rw [dif_pos (by show (t.val + 1) % 4 = 0; omega)]
theorem Φ_post_other (c : Dev nD) (t : Fin cfg0.N) (h : t.val % 4 ≠ 3) :
    (dats m 0 c).Φ t.succ = iprop(owns (c : Thread nD τ) rsM fullShare (rsA m c t.val t.isLt) ∗ owns (c : Thread nD τ) ptM fullShare (ptA m c t.val t.isLt)) := by
  show Φv m c _ = _; unfold Φv; rw [dif_neg (by show ¬ (t.val + 1) % 4 = 0; omega)]; rfl

/-- The body obligation at every point, by the point's kind: the run of that kind between the invariant's two forms;
    the output's staging buffer passed through at an idle point, at what the point stored at a last one. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  have hN := N_sixteen
  by_cases hL : IsLast t
  · have h3 : t.val % 4 = 3 := (isLast_iff t).mp hL
    have hF : ¬ IsFirst t := fun h => by have := (isFirst_iff t).mp h; omega
    simp only [idle0_eq, idle1_eq, idle2_eq, idle3_of_last t hL, flush3_of_last t hL, before_0, before_1, before_2, after_0, after_1, after_2, after_3]
    rw [Φ_pre_other m c t (by omega), Φ_post_last m c t h3,
      show outAt m c t = outLast (rsB m c t (by omega)) (ptB m c t (by omega)) (xi m c t) (xj m c t) (mub m c t) from dif_neg (by omega)]
    iintro ⟨⟨Ha, Hp⟩, ⟨%Wt, %hW, HO⟩, ⟨%d0, H0⟩, ⟨%d1, H1⟩, ⟨%d2, H2⟩, ⟨%d3, H3⟩⟩
    iapply (run_last c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (xi m c t) (xj m c t) (mub m c t) (rsB m c t (by omega)) (ptB m c t (by omega)) hF hL)
    isplitl [H0]; · iexact H0
    isplitl [H1]; · iexact H1
    isplitl [H2]; · iexact H2
    isplitl [H3]; · iexists _; iexact H3
    isplitl [Ha]; · iexact Ha
    isplitl [Hp]; · iexact Hp
    iintro ⟨H0, H1, H2, H3, Ha, Hp⟩
    isplitl [Ha Hp]
    · isplitl [Ha]; · iexists _; iexact Ha
      iexists _; iexact Hp
    isplitl [HO]; · iapply (owesAt_intro m c); iexact HO
    isplitl [H0]; · iexact H0
    isplitl [H1]; · iexact H1
    isplitl [H2]; · iexact H2
    iexact H3
  · simp only [idle0_eq, idle1_eq, idle2_eq, idle3_of_not_last t hL, flush3_of_not_last t hL, before_0, before_1, before_2, after_0, after_1, after_2, after_3]
    by_cases hF : IsFirst t
    · have h0 : t.val % 4 = 0 := (isFirst_iff t).mp hF
      rw [Φ_pre_first m c t h0, Φ_post_other m c t (by omega), rsA_first m c t h0, ptA_first m c t h0]
      iintro ⟨⟨Ha, Hp⟩, ⟨%Wt, %hW, HO⟩, ⟨%d0, H0⟩, ⟨%d1, H1⟩, ⟨%d2, H2⟩, H3⟩
      iapply (run_first c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (xi m c t) (xj m c t) hF hL (iprop(owns (c : Thread nD τ) (st0_2 t) fullShare (iblk m c 2 t) ∗ ∃ d, owns (c : Thread nD τ) (st0_3 t) fullShare ((dats m 0 c).before 3 t d))))
      isplitl [H0]; · iexact H0
      isplitl [H1]; · iexact H1
      isplitl [H2 H3]; · isplitl [H2]; (· iexact H2); iexact H3
      isplitl [Ha]; · iexact Ha
      isplitl [Hp]; · iexact Hp
      iintro ⟨H0, H1, ⟨H2, H3⟩, Ha, Hp⟩
      isplitl [Ha Hp]
      · isplitl [Ha] <;> iassumption
      isplitl [HO]; · iapply (owesAt_intro m c); iexact HO
      isplitl [H0]; · iexact H0
      isplitl [H1]; · iexact H1
      isplitl [H2]; · iexact H2
      iexact H3
    · have h1 : t.val % 4 ≠ 0 := fun h => hF ((isFirst_iff t).mpr h)
      have h2 : t.val % 4 ≠ 3 := fun h => hL ((isLast_iff t).mpr h)
      rw [Φ_pre_other m c t h1, Φ_post_other m c t h2, rsA_step m c t h1, ptA_step m c t h1]
      iintro ⟨⟨Ha, Hp⟩, ⟨%Wt, %hW, HO⟩, ⟨%d0, H0⟩, ⟨%d1, H1⟩, ⟨%d2, H2⟩, H3⟩
      iapply (run_mid c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (xi m c t) (xj m c t) (rsB m c t h1) (ptB m c t h1) hF hL (iprop(owns (c : Thread nD τ) (st0_2 t) fullShare (iblk m c 2 t) ∗ ∃ d, owns (c : Thread nD τ) (st0_3 t) fullShare ((dats m 0 c).before 3 t d))))
      isplitl [H0]; · iexact H0
      isplitl [H1]; · iexact H1
      isplitl [H2 H3]; · isplitl [H2]; (· iexact H2); iexact H3
      isplitl [Ha]; · iexact Ha
      isplitl [Hp]; · iexact Hp
      iintro ⟨H0, H1, ⟨H2, H3⟩, Ha, Hp⟩
      isplitl [Ha Hp]
      · isplitl [Ha] <;> iassumption
      isplitl [HO]; · iapply (owesAt_intro m c); iexact HO
      isplitl [H0]; · iexact H0
      isplitl [H1]; · iexact H1
      isplitl [H2]; · iexact H2
      iexact H3

end Cert.Kernel.Hand

end
-- ==== Proof.BLaunch.lean ====
/-
  The launch: every weakly fair execution of @main terminates; each windowed array ends at the library's account of
  its window (`Dat.arrAt` after the last point), and μ, which no window stages, ends as launched. The particles'
  buffer reaches the region once and is dealt to its two input windows as the two halves of its full share.
-/
import proofs.«151449_j48387101557205_1_alg».proof.Proof.BRun
import Idealize.ShloMosaic.Lib.Pipeline.Launch
import Idealize.ShloMosaic.Lib.StableHlo.Run

noncomputable section

namespace Cert.Kernel.Hand

open Cert.Kernel Cert.Kernel.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rounds library's launch element: every staging cell's owner at round 0 and a duty token per transfer. -/
abbrev u₀ : UR sig nD τ := initOf (Pipeline.cells cfgs cellOf_inj) (Pipeline.launchToks cfgs cellOf_inj)

/-- The unscoped buffers no window stages. -/
abbrev restRefs : Finset (Ref sig .tc) := (Finset.univ.filter fun b : Ref sig .tc => ¬ b.isScoped) \ Finset.univ.image (Pipeline.arrRef spec0)

theorem arg1_mem_rest : main_arg1 ∈ restRefs := by decide

/-- The buffers behind the windows' arrays are the particles', μ's reshaped copy and the result's. -/
theorem arrRefs_eq : Finset.univ.image (Pipeline.arrRef spec0) = [main_arg0, main_v0, main_v1].toFinset := by decide

/-- The buffers behind the arrays, whole at the entry contents, make the proof data's arrays at entry: the
    particles' full share splits into the halves its two windows hold. -/
theorem hsplit (c : Dev nD) : (Pipeline.arrBufs spec0 c (V m c) : sProp 𝕄) ⊢ (dats m 0 c).arrays ((dats m 0 c).arrAt · 0) := by
  unfold Pipeline.arrBufs Dat.arrays
  rw [bigSep_eq_bigSepL_of_eq _ arrRefs_eq (by decide), bigSep_W0]
  show iprop((((c : Thread nD τ).loc main_arg0) ↦{fullShare} V m c main_arg0) ∗ (((c : Thread nD τ).loc main_v0) ↦{fullShare} V m c main_v0)
      ∗ (((c : Thread nD τ).loc main_v1) ↦{fullShare} V m c main_v1)) ⊢ _
  iintro ⟨H0, H2, H3⟩
  ihave H01 := (pointsTo_share (PosShare.mem_left_op_right fullShare)).1 $$ H0
  icases H01 with ⟨Hl, Hr⟩
  isplitl [Hl]
  · rw [(arr_whole0 0).set_eq_univ]; iexact Hl
  isplitl [Hr]
  · rw [(arr_whole0 1).set_eq_univ]; iexact Hr
  isplitl [H2]
  · rw [(arr_whole0 2).set_eq_univ]; iexact H2
  · rw [(arr_whole0 3).set_eq_univ]; iexact H3

theorem hin (c : Dev nD) : iprop((emp : sProp 𝕄) ∗ Pipeline.scopedRest spec0 c) ⊢ (dats m 0 c).Φ 0 := by
  rw [scopedRest0_eq, show (dats m 0 c).Φ 0 = Φv m c 0 from rfl]
  unfold Φv; rw [dif_pos (by decide)]
  iintro ⟨-, ⟨%f, Hf⟩, ⟨%g, Hg⟩⟩
  isplitl [Hf]
  · iexists f; rw [owns_whole_eq]; iexists f; isplitr; (· ipureintro; rfl); iexact Hf
  · iexists g; rw [owns_whole_eq]; iexists g; isplitr; (· ipureintro; rfl); iexact Hg

theorem hout (c : Dev nD) : (dats m 0 c).Φ (Fin.last cfg0.N) ⊢ iprop((emp : sProp 𝕄) ∗ Pipeline.scopedRest spec0 c) := by
  rw [scopedRest0_eq, show (dats m 0 c).Φ (Fin.last cfg0.N) = Φv m c (Fin.last cfg0.N) from rfl]
  unfold Φv; rw [dif_pos (by decide)]; simp only [owns_whole_eq]
  iintro ⟨⟨%a, %f, %hf, Hf⟩, ⟨%p, %g, %hg, Hg⟩⟩
  isplitr; · iempintro
  isplitl [Hf]; · iexists f; iexact Hf
  iexists g; iexact Hg

/-- What the run leaves: each window's array at the library's account of it, the bypassing buffers as the region found them. -/
def RunPost (r : PUnit × MemSt nD τ sig (Elt F)) : Prop :=
  ∀ c : Dev nD, (∀ w : Fin cfg0.W, r.2.mem ((spec0 w).arr.view.loc (c : Thread nD τ)) = (dats m 0 c).arrAt w cfg0.N)
    ∧ ∀ b ∈ restRefs, r.2.mem ((c : Thread nD τ).loc b) = V m c b

theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ 𝒱₀ m ρ main
    (hbody := fun c => (body_obligation m c).loose) (hne := block_pos0) (harr := arr_whole0) (hstage := stage_whole0)
    (howed := fun _ _ => rfl) (u₀ := u₀) (hu₀ := Entails.of_eq (ownU_emb₁ _))
    (V := V m) (hmain := hmain m 𝒱₀) (hsplit := hsplit m)
    (X := fun _ => iprop(emp)) (Y := fun _ => iprop(emp)) (Z := fun c => Pipeline.unscopedRest spec0 c (V m c))
    (hX := fun c => by iintro H; isplitr; (· iempintro); iexact H)
    (hin := hin m) (hout := hout m)
    (QY := fun c s => ∀ b ∈ restRefs, s.mem ((c : Thread nD τ).loc b) = V m c b)
    (hY := fun c s' => by
      iintro ⟨-, HU, HSI⟩
      unfold Pipeline.unscopedRest
      imodintro
      iapply (pointsTo_read_all restRefs (fun b => (c : Thread nD τ).loc b) (V m c) s')
      isplitl [HU] <;> iassumption)
    (hQ := fun _ h c => ⟨(h c).1, (h c).2⟩)

/-! ## Reading the final state -/

/-- The one host operation before the region reshapes μ into another buffer: both arguments reach the region as launched. -/
theorem V_main_arg0 (c : Dev nD) : V m c main_arg0 = m ((c : Thread nD τ).loc main_arg0) := by
  dsimp only [V, hostOps0]; after_results
theorem V_main_arg1 (c : Dev nD) : V m c main_arg1 = m ((c : Thread nD τ).loc main_arg1) := by
  dsimp only [V, hostOps0]; after_results
theorem V_main_v0 (c : Dev nD) :
    (V m c main_v0 : S1x16.Idx → Elt F .f32) = shapeCast S1x16 (m ((c : Thread nD τ).loc main_arg1)) shapeCasts_S16_S1x16 := by
  dsimp only [V, hostOps0]; after_results; rfl

variable {m}

theorem final_arg0 {r : PUnit × MemSt nD τ sig (Elt F)} (h : RunPost m r) (c : Dev nD) :
    r.2.mem ((c : Thread nD τ).loc main_arg0) = m ((c : Thread nD τ).loc main_arg0) :=
  ((h c).1 0).trans (((dats m 0 c).arrAt_in 0 rfl _).trans (V_main_arg0 m c))
theorem final_arg1 {r : PUnit × MemSt nD τ sig (Elt F)} (h : RunPost m r) (c : Dev nD) :
    r.2.mem ((c : Thread nD τ).loc main_arg1) = m ((c : Thread nD τ).loc main_arg1) :=
  ((h c).2 main_arg1 arg1_mem_rest).trans (V_main_arg1 m c)
theorem final_v1 {r : PUnit × MemSt nD τ sig (Elt F)} (h : RunPost m r) (c : Dev nD) :
    r.2.mem ((c : Thread nD τ).loc main_v1) = (dats m 0 c).arrAt 3 cfg0.N :=
  (h c).1 3

variable (m)

/-- The frame: @main runs to the end and both argument arrays end as launched. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨final_arg0 h c, final_arg1 h c⟩) (run_main m ρ)

end Cert.Kernel.Hand

end
-- ==== Proof.KBody.lean ====
/-
  The kernel body at a symbolic grid point. The grid is 4 row tiles × 4 column tiles; at point (i, j) the body,
  if j = 0, zeroes its two scratch accumulators (a [1024, 1] row sum and a [1024, 16] weighted sum); computes the
  weight tile of row tile i against column tile j; adds the tile's row sums and its weights times the column tile
  into the accumulators; and, if j = 3, combines the accumulators with the row tile and μ into the output block.
  Three runs, one per kind of point (first / middle / last column tile), each from the two input blocks at their
  contents, the accumulators at theirs, and each leaving the accumulators at the step's values; a last step also
  leaves the output buffer at the combined block. The stored values are the generated payload terms; whole-block
  loads and stores at offset zero collapse to the payloads themselves (proved where the values are read).
-/
import proofs.«151449_j48387101557205_1_alg».proof.Proof.Gen.KernelIdeal
import proofs.«151449_j48387101557205_1_alg».proof.Proof.Gen.KernelIdeal.Skeleton
import proofs.«151449_j48387101557205_1_alg».proof.Proof.Gen.KernelIdeal.Launch
import Idealize.ShloMosaic.Lib.Writes
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rsM : Memref sig .tc .vmem S1024x1 .f32 := Memref.whole cc0_scratch0
abbrev ptM : Memref sig .tc .vmem S1024x16 .f32 := Memref.whole cc0_scratch1
abbrev r1 : Rect S1024x1 := Rect.unit (s := S1024x1) ![0, 0] S1024x1.size inb_S1024x1_S1024x1_0_0
abbrev r16 : Rect S1024x16 := Rect.unit (s := S1024x16) ![0, 0] S1024x16.size inb_S1024x16_S1024x16_0_0
abbrev rmu : Rect S1x16 := Rect.unit (s := S1x16) ![0, 0] S1x16.size inb_S1x16_S1x16_0_0

abbrev IsFirst (t : Fin cfg0.N) : Prop := Scalar.cmpi .ne (Scalar.extui (Scalar.cmpi .eq (BitVec.ofNat 32 ((grid0.coords t) 1).val) 0#32)) 0#32 = 1#1
abbrev IsLast (t : Fin cfg0.N) : Prop := k0_cond2 (grid0.coords t) = 1#1

/-! ## What each kind of step leaves -/

/-- The accumulators after a middle or last step, from contents `a`, `p` and the blocks `x0` (rows), `x1` (columns). -/
abbrev rsStep (a : Vec F S1024x1 .f32) (x0 x1 : Vec F S1024x16 .f32) : Vec F S1024x1 .f32 :=
  View.canon [⟨r1, k0_pay6 (View.ld x0 r16) (View.ld x1 r16) (View.ld a r1)⟩]
abbrev ptStep (p : Vec F S1024x16 .f32) (x0 x1 : Vec F S1024x16 .f32) : Vec F S1024x16 .f32 :=
  View.canon [⟨r16, k0_pay1 (k0_pay7 (View.ld x0 r16) (View.ld x1 r16) (View.ld p r16))⟩]
/-- After a first step: zeroed, then the step taken from the zeros read back. -/
abbrev rsFirst (x0 x1 : Vec F S1024x16 .f32) : Vec F S1024x1 .f32 :=
  View.canon [⟨r1, k0_pay6 (View.ld x0 r16) (View.ld x1 r16) (rsM.view.readCov [⟨r1, k0_pay3⟩] r1.toLoadRect)⟩, ⟨r1, k0_pay3⟩]
abbrev ptFirst (x0 x1 : Vec F S1024x16 .f32) : Vec F S1024x16 .f32 :=
  View.canon [⟨r16, k0_pay1 (k0_pay7 (View.ld x0 r16) (View.ld x1 r16) (ptM.view.readCov [⟨r16, k0_pay4⟩] r16.toLoadRect))⟩, ⟨r16, k0_pay4⟩]
/-- The output block a last step stores: the accumulators read back through the step's stores, with the rows and μ. -/
abbrev outLast (a : Vec F S1024x1 .f32) (p : Vec F S1024x16 .f32) (x0 x1 : Vec F S1024x16 .f32) (x2 : Vec F S1x16 .f32) : Vec F S1024x16 .f32 :=
  View.canon [⟨r16, k0_pay2 (View.ld x0 r16) (View.ld x2 rmu)
    (rsM.view.readCov [⟨r1, k0_pay6 (View.ld x0 r16) (View.ld x1 r16) (View.ld a r1)⟩] r1.toLoadRect)
    (ptM.view.readCov [⟨r16, k0_pay1 (k0_pay7 (View.ld x0 r16) (View.ld x1 r16) (View.ld p r16))⟩] r16.toLoadRect)⟩]

omit [FloatOps F] in
theorem cover1_1 (q : Vec F S1024x1 .f32) (y : S1024x1.Idx) : ∃ pc ∈ ([⟨r1, q⟩] : List (View.Piece (Elt F) S1024x1 .f32)), y ∈ pc.1.set :=
  View.cover_of_tiled [⟨r1, q⟩] S1024x1.size (by rfl) y
omit [FloatOps F] in
theorem cover1_2 (q q' : Vec F S1024x1 .f32) (y : S1024x1.Idx) : ∃ pc ∈ ([⟨r1, q⟩, ⟨r1, q'⟩] : List (View.Piece (Elt F) S1024x1 .f32)), y ∈ pc.1.set :=
  View.cover_of_tiled [⟨r1, q⟩, ⟨r1, q'⟩] S1024x1.size (by rfl) y
omit [FloatOps F] in
theorem cover16_1 (q : Vec F S1024x16 .f32) (y : S1024x16.Idx) : ∃ pc ∈ ([⟨r16, q⟩] : List (View.Piece (Elt F) S1024x16 .f32)), y ∈ pc.1.set :=
  View.cover_of_tiled [⟨r16, q⟩] S1024x16.size (by rfl) y
omit [FloatOps F] in
theorem cover16_2 (q q' : Vec F S1024x16 .f32) (y : S1024x16.Idx) : ∃ pc ∈ ([⟨r16, q⟩, ⟨r16, q'⟩] : List (View.Piece (Elt F) S1024x16 .f32)), y ∈ pc.1.set :=
  View.cover_of_tiled [⟨r16, q⟩, ⟨r16, q'⟩] S1024x16.size (by rfl) y

section Runs

variable (c : Dev nD) (t : Fin cfg0.N)
  (M0 : Memref sig .tc .vmem S1024x16 .f32) (h0 : M0.IsWhole) (M1 : Memref sig .tc .vmem S1024x16 .f32) (h1 : M1.IsWhole)
  (M2 : Memref sig .tc .vmem S1x16 .f32) (h2 : M2.IsWhole) (M3 : Memref sig .tc .vmem S1024x16 .f32) (h3 : M3.IsWhole)
  (x0 x1 : Vec F S1024x16 .f32) (x2 : Vec F S1x16 .f32) (a : Vec F S1024x1 .f32) (p : Vec F S1024x16 .f32)

local notation "BODY" => cc0__svgd_kernel (grid0.coords t) M0 h0 M1 h1 M2 h2 M3 h3 (Memref.whole cc0_scratch0) (Memref.isWhole_whole _) (Memref.whole cc0_scratch1) (Memref.isWhole_whole _)

/-- A first step (j = 0): the accumulators, whatever they held, end at the first-step values; μ's buffer and the
    output's are not touched (`O`). -/
theorem run_first (hF : IsFirst t) (hL : ¬ IsLast t) (O : sProp 𝕄) (Q : PUnit → sProp 𝕄) :
    iprop(owns (c : Thread nD τ) M0 fullShare x0 ∗ owns (c : Thread nD τ) M1 fullShare x1 ∗ O
      ∗ (∃ a, owns (c : Thread nD τ) rsM fullShare a) ∗ (∃ p, owns (c : Thread nD τ) ptM fullShare p)
      ∗ (iprop(owns (c : Thread nD τ) M0 fullShare x0 ∗ owns (c : Thread nD τ) M1 fullShare x1 ∗ O
          ∗ owns (c : Thread nD τ) rsM fullShare (rsFirst x0 x1) ∗ owns (c : Thread nD τ) ptM fullShare (ptFirst x0 x1)) -∗ Q ⟨⟩))
      ⊢ wp frame (wpE (defs₀ (F := F)) Variants.none c none) Set.univ BODY Q := by
  unfold owns
  iintro ⟨⟨%f0, %hf0, H0⟩, ⟨%f1, %hf1, H1⟩, HO, ⟨%a', %fa, %hfa, Ha⟩, ⟨%p', %fp, %hfp, Hp⟩, Hk⟩
  subst hf0 hf1
  sl_exec! (disch := assumption)
  sl_step
  iapply Hk
  isplitl [H0]; · iexists f0; isplitr; (· ipureintro; rfl); iexact H0
  isplitl [H1]; · iexists f1; isplitr; (· ipureintro; rfl); iexact H1
  isplitl [HO]; · iexact HO
  isplitl [Ha]
  · iexists _; isplitr; swap; (· iexact Ha); ipureintro; exact View.read_writes_eq_canon _ _ _ (cover1_2 _ _)
  · iexists _; isplitr; swap; (· iexact Hp); ipureintro; exact View.read_writes_eq_canon _ _ _ (cover16_2 _ _)

/-- A middle step: the accumulators at `a`, `p` end at the step's values; μ's buffer and the output's are not touched. -/
theorem run_mid (hF : ¬ IsFirst t) (hL : ¬ IsLast t) (O : sProp 𝕄) (Q : PUnit → sProp 𝕄) :
    iprop(owns (c : Thread nD τ) M0 fullShare x0 ∗ owns (c : Thread nD τ) M1 fullShare x1 ∗ O
      ∗ owns (c : Thread nD τ) rsM fullShare a ∗ owns (c : Thread nD τ) ptM fullShare p
      ∗ (iprop(owns (c : Thread nD τ) M0 fullShare x0 ∗ owns (c : Thread nD τ) M1 fullShare x1 ∗ O
          ∗ owns (c : Thread nD τ) rsM fullShare (rsStep a x0 x1) ∗ owns (c : Thread nD τ) ptM fullShare (ptStep p x0 x1)) -∗ Q ⟨⟩))
      ⊢ wp frame (wpE (defs₀ (F := F)) Variants.none c none) Set.univ BODY Q := by
  unfold owns
  iintro ⟨⟨%f0, %hf0, H0⟩, ⟨%f1, %hf1, H1⟩, HO, ⟨%fa, %hfa, Ha⟩, ⟨%fp, %hfp, Hp⟩, Hk⟩
  subst hf0 hf1 hfa hfp
  sl_exec! (disch := assumption)
  sl_step
  iapply Hk
  isplitl [H0]; · iexists f0; isplitr; (· ipureintro; rfl); iexact H0
  isplitl [H1]; · iexists f1; isplitr; (· ipureintro; rfl); iexact H1
  isplitl [HO]; · iexact HO
  isplitl [Ha]
  · iexists _; isplitr; swap; (· iexact Ha); ipureintro; exact View.read_writes_eq_canon _ _ _ (cover1_1 _)
  · iexists _; isplitr; swap; (· iexact Hp); ipureintro; exact View.read_writes_eq_canon _ _ _ (cover16_1 _)

/-- A last step (j = 3): the accumulators end at the step's values and the output's buffer, whatever it held, at the
    combined block; μ's buffer is read and kept. -/
theorem run_last (hF : ¬ IsFirst t) (hL : IsLast t) (Q : PUnit → sProp 𝕄) :
    iprop(owns (c : Thread nD τ) M0 fullShare x0 ∗ owns (c : Thread nD τ) M1 fullShare x1 ∗ owns (c : Thread nD τ) M2 fullShare x2
      ∗ (∃ o, owns (c : Thread nD τ) M3 fullShare o)
      ∗ owns (c : Thread nD τ) rsM fullShare a ∗ owns (c : Thread nD τ) ptM fullShare p
      ∗ (iprop(owns (c : Thread nD τ) M0 fullShare x0 ∗ owns (c : Thread nD τ) M1 fullShare x1 ∗ owns (c : Thread nD τ) M2 fullShare x2
          ∗ owns (c : Thread nD τ) M3 fullShare (outLast a p x0 x1 x2)
          ∗ owns (c : Thread nD τ) rsM fullShare (rsStep a x0 x1) ∗ owns (c : Thread nD τ) ptM fullShare (ptStep p x0 x1)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%o, %f3, %hf3, H3⟩, ⟨%fa, %hfa, Ha⟩, ⟨%fp, %hfp, Hp⟩, Hk⟩
  subst hf0 hf1 hf2 hfa hfp
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]
  · iexists _; isplitr; swap; (· iexact H3); ipureintro; exact View.read_writes_eq_canon _ _ _ (cover16_1 _)
  isplitl [Ha]
  · iexists _; isplitr; swap; (· iexact Ha); ipureintro; exact View.read_writes_eq_canon _ _ _ (cover1_1 _)
  · iexists _; isplitr; swap; (· iexact Hp); ipureintro; exact View.read_writes_eq_canon _ _ _ (cover16_1 _)

end Runs

end Cert.KernelIdeal.Hand

end
-- ==== Proof.KRun.lean ====
/-
  The pipeline's proof data and the launch. The grid's 16 points run row tile i = t / 4 against column tile
  j = t % 4. Between points the two scratch accumulators hold the row sums and the weighted sums over the column
  tiles seen so far in the current row tile (`rsA`, `ptA`, by recursion on the point: restarted at each j = 0);
  before a row tile's first point, and after the last point, they hold anything. The output window's buffer is
  written only at a row tile's last point, with the block `outAt`, and written back exactly there; elsewhere it
  passes through the body untouched. The particles' array is handed to the kernel through two input windows
  (row tile and column tile): its full share is split into two halves, one per window. μ's reshaped copy is the
  third input; μ itself bypasses the region.
-/
import proofs.«151449_j48387101557205_1_alg».proof.Proof.KBody
import proofs.«151449_j48387101557205_1_alg».proof.Proof.Gen.KernelIdeal.Points
import Idealize.ShloMosaic.Lib.Pipeline.Frame
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The kinds of point -/

theorem N_sixteen : cfg0.N = 16 := N_0

/-- A point is a row tile's first iff its number is ≡ 0 (mod 4), its last iff ≡ 3. -/
theorem isFirst_iff : ∀ t : Fin cfg0.N, IsFirst t ↔ t.val % 4 = 0 :=
  (by decide +kernel : ∀ t : Fin grid0.N, (Scalar.cmpi .ne (Scalar.extui (Scalar.cmpi .eq (BitVec.ofNat 32 ((grid0.coords t) 1).val) 0#32)) 0#32 = 1#1) ↔ t.val % 4 = 0)
theorem isLast_iff : ∀ t : Fin cfg0.N, IsLast t ↔ t.val % 4 = 3 :=
  (by decide +kernel : ∀ t : Fin grid0.N, k0_cond2 (grid0.coords t) = 1#1 ↔ t.val % 4 = 3)

/-- The output window is idle except at a last point, and written back exactly there. -/
theorem idle3_of_last (t : Fin cfg0.N) (h : IsLast t) : idle0 3 (grid0.coords t) = false := by
  show (!(k0_cond2 (grid0.coords t) == 1#1)) = false; rw [show (k0_cond2 (grid0.coords t) == 1#1) = true from beq_iff_eq.mpr h]; rfl
theorem idle3_of_not_last (t : Fin cfg0.N) (h : ¬ IsLast t) : idle0 3 (grid0.coords t) = true := by
  show (!(k0_cond2 (grid0.coords t) == 1#1)) = true; rw [show (k0_cond2 (grid0.coords t) == 1#1) = false from beq_eq_false_iff_ne.mpr h]; rfl
theorem idle0_eq (t : Fin cfg0.N) : idle0 0 (grid0.coords t) = false := rfl
theorem idle1_eq (t : Fin cfg0.N) : idle0 1 (grid0.coords t) = false := rfl
theorem idle2_eq (t : Fin cfg0.N) : idle0 2 (grid0.coords t) = false := rfl
theorem flush3_of_last (t : Fin cfg0.N) (h : IsLast t) : (cfg0.win 3).flush t = true := (flush0_3 t).mpr ((isLast_iff t).mp h)
theorem flush3_of_not_last (t : Fin cfg0.N) (h : ¬ IsLast t) : (cfg0.win 3).flush t = false :=
  Bool.eq_false_iff.mpr fun hf => h ((isLast_iff t).mpr ((flush0_3 t).mp hf))

variable (m : (ℓ : Loc nD τ sig) → Buf (Elt F) ℓ) (ρ : Dev nD → PrngReg)

/-! ## @main up to the region -/

/-- Core `c`'s buffers when the region is entered: the launch contents after the one reshape of μ. -/
abbrev V (c : Dev nD) (b : Ref sig .tc) : Buf (Elt F) ((c : Thread nD τ).loc b) :=
  StableHlo.after (hostOps0 (F := F)) (fun b => m (c, b)) b

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub rfl fun c => main_chain c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row tile, the column tile and μ's row at point `t`, at their literal types. -/
abbrev xi (c : Dev nD) (t : Fin cfg0.N) : Vec F S1024x16 .f32 := iblk m c 0 t
abbrev xj (c : Dev nD) (t : Fin cfg0.N) : Vec F S1024x16 .f32 := iblk m c 1 t
abbrev mub (c : Dev nD) (t : Fin cfg0.N) : Vec F S1x16 .f32 := iblk m c 2 t

/-! ## The accumulators after each point -/

/-- The row-sum scratch after point `k`: restarted at the first point of a row tile, else stepped from the point before. -/
def rsA (c : Dev nD) : (k : ℕ) → k < cfg0.N → Vec F S1024x1 .f32
  | 0, hk => rsFirst (xi m c ⟨0, hk⟩) (xj m c ⟨0, hk⟩)
  | k + 1, hk => if (k + 1) % 4 = 0 then rsFirst (xi m c ⟨k + 1, hk⟩) (xj m c ⟨k + 1, hk⟩)
      else rsStep (rsA c k (Nat.lt_of_succ_lt hk)) (xi m c ⟨k + 1, hk⟩) (xj m c ⟨k + 1, hk⟩)
/-- The weighted-sum scratch after point `k`, likewise. -/
def ptA (c : Dev nD) : (k : ℕ) → k < cfg0.N → Vec F S1024x16 .f32
  | 0, hk => ptFirst (xi m c ⟨0, hk⟩) (xj m c ⟨0, hk⟩)
  | k + 1, hk => if (k + 1) % 4 = 0 then ptFirst (xi m c ⟨k + 1, hk⟩) (xj m c ⟨k + 1, hk⟩)
      else ptStep (ptA c k (Nat.lt_of_succ_lt hk)) (xi m c ⟨k + 1, hk⟩) (xj m c ⟨k + 1, hk⟩)

theorem rsA_first (c : Dev nD) (t : Fin cfg0.N) (h : t.val % 4 = 0) : rsA m c t.val t.isLt = rsFirst (xi m c t) (xj m c t) := by
  obtain ⟨k, hk⟩ := t
  cases k with
  | zero => rfl
  | succ k => show (if (k + 1) % 4 = 0 then _ else _) = _; rw [if_pos h]
theorem ptA_first (c : Dev nD) (t : Fin cfg0.N) (h : t.val % 4 = 0) : ptA m c t.val t.isLt = ptFirst (xi m c t) (xj m c t) := by
  obtain ⟨k, hk⟩ := t
  cases k with
  | zero => rfl
  | succ k => show (if (k + 1) % 4 = 0 then _ else _) = _; rw [if_pos h]
theorem rsA_step (c : Dev nD) (t : Fin cfg0.N) (h : t.val % 4 ≠ 0) (hp : t.val - 1 < cfg0.N) :
    rsA m c t.val t.isLt = rsStep (rsA m c (t.val - 1) hp) (xi m c t) (xj m c t) := by
  obtain ⟨k, hk⟩ := t
  cases k with
  | zero => exact absurd rfl h
  | succ k => show (if (k + 1) % 4 = 0 then _ else _) = _; rw [if_neg h]; rfl
theorem ptA_step (c : Dev nD) (t : Fin cfg0.N) (h : t.val % 4 ≠ 0) (hp : t.val - 1 < cfg0.N) :
    ptA m c t.val t.isLt = ptStep (ptA m c (t.val - 1) hp) (xi m c t) (xj m c t) := by
  obtain ⟨k, hk⟩ := t
  cases k with
  | zero => exact absurd rfl h
  | succ k => show (if (k + 1) % 4 = 0 then _ else _) = _; rw [if_neg h]; rfl

/-- The scratches BEFORE point `t`, at a point that is not a row tile's first: what the previous point left. -/
abbrev rsB (c : Dev nD) (t : Fin cfg0.N) (h : t.val % 4 ≠ 0) : Vec F S1024x1 .f32 :=
  rsA m c (t.val - 1) (by have := t.isLt; omega)
abbrev ptB (c : Dev nD) (t : Fin cfg0.N) (h : t.val % 4 ≠ 0) : Vec F S1024x16 .f32 :=
  ptA m c (t.val - 1) (by have := t.isLt; omega)

/-! ## The proof data -/

/-- The invariant before point `k` (k = 0 … 16): the scratches at anything before a row tile's first point and after the
    last point, else at what the previous point left. -/
def Φv (c : Dev nD) (k : Fin (cfg0.N + 1)) : sProp 𝕄 :=
  if h : k.val % 4 = 0 then iprop((∃ a, owns (c : Thread nD τ) rsM fullShare a) ∗ ∃ p, owns (c : Thread nD τ) ptM fullShare p)
  else iprop(owns (c : Thread nD τ) rsM fullShare (rsA m c (k.val - 1) (by have := k.isLt; omega))
    ∗ owns (c : Thread nD τ) ptM fullShare (ptA m c (k.val - 1) (by have := k.isLt; omega)))

/-- The block a point leaves in the output's staging buffer — read only at a last point, where it is `outLast` of the
    scratches before the point and the three input blocks. -/
def outAt (c : Dev nD) (t : Fin cfg0.N) : Vec F S1024x16 .f32 :=
  if h : t.val % 4 = 0 then k0_pay4 else outLast (rsB m c t h) (ptB m c t h) (xi m c t) (xj m c t) (mub m c t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ k := Φv m c k
  q w := match w with
    | ⟨0, _⟩ => fullShare.left
    | ⟨1, _⟩ => fullShare.right
    | ⟨2, _⟩ => fullShare
    | ⟨3, _⟩ => fullShare
  owed _ := 0

abbrev 𝒱₀ : Variants := Variants.none

/-- Each input window's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; dsimp only [dats]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; dsimp only [dats]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; dsimp only [dats]; rfl)
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before and after point `t`, by the point's kind. -/
theorem Φ_pre_first (c : Dev nD) (t : Fin cfg0.N) (h : t.val % 4 = 0) :
    (dats m 0 c).Φ t.castSucc = iprop((∃ a, owns (c : Thread nD τ) rsM fullShare a) ∗ ∃ p, owns (c : Thread nD τ) ptM fullShare p) := by
  show Φv m c _ = _; unfold Φv; rw [dif_pos (by exact h)]
theorem Φ_pre_other (c : Dev nD) (t : Fin cfg0.N) (h : t.val % 4 ≠ 0) :
    (dats m 0 c).Φ t.castSucc = iprop(owns (c : Thread nD τ) rsM fullShare (rsB m c t h) ∗ owns (c : Thread nD τ) ptM fullShare (ptB m c t h)) := by
  show Φv m c _ = _; unfold Φv; rw [dif_neg (by exact h)]; rfl
theorem Φ_post_last (c : Dev nD) (t : Fin cfg0.N) (h : t.val % 4 = 3) :
    (dats m 0 c).Φ t.succ = iprop((∃ a, owns (c : Thread nD τ) rsM fullShare a) ∗ ∃ p, owns (c : Thread nD τ) ptM fullShare p) := by
  show Φv m c _ = _; unfold Φv; rw [dif_pos (by show (t.val + 1) % 4 = 0; omega)]
theorem Φ_post_other (c : Dev nD) (t : Fin cfg0.N) (h : t.val % 4 ≠ 3) :
    (dats m 0 c).Φ t.succ = iprop(owns (c : Thread nD τ) rsM fullShare (rsA m c t.val t.isLt) ∗ owns (c : Thread nD τ) ptM fullShare (ptA m c t.val t.isLt)) := by
  show Φv m c _ = _; unfold Φv; rw [dif_neg (by show ¬ (t.val + 1) % 4 = 0; omega)]; rfl

/-- The body obligation at every point, by the point's kind: the run of that kind between the invariant's two forms;
    the output's staging buffer passed through at an idle point, at what the point stored at a last one. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  have hN := N_sixteen
  by_cases hL : IsLast t
  · have h3 : t.val % 4 = 3 := (isLast_iff t).mp hL
    have hF : ¬ IsFirst t := fun h => by have := (isFirst_iff t).mp h; omega
    simp only [idle0_eq, idle1_eq, idle2_eq, idle3_of_last t hL, flush3_of_last t hL, before_0, before_1, before_2, after_0, after_1, after_2, after_3]
    rw [Φ_pre_other m c t (by omega), Φ_post_last m c t h3,
      show outAt m c t = outLast (rsB m c t (by omega)) (ptB m c t (by omega)) (xi m c t) (xj m c t) (mub m c t) from dif_neg (by omega)]
    iintro ⟨⟨Ha, Hp⟩, ⟨%Wt, %hW, HO⟩, ⟨%d0, H0⟩, ⟨%d1, H1⟩, ⟨%d2, H2⟩, ⟨%d3, H3⟩⟩
    iapply (run_last c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (xi m c t) (xj m c t) (mub m c t) (rsB m c t (by omega)) (ptB m c t (by omega)) hF hL)
    isplitl [H0]; · iexact H0
    isplitl [H1]; · iexact H1
    isplitl [H2]; · iexact H2
    isplitl [H3]; · iexists _; iexact H3
    isplitl [Ha]; · iexact Ha
    isplitl [Hp]; · iexact Hp
    iintro ⟨H0, H1, H2, H3, Ha, Hp⟩
    isplitl [Ha Hp]
    · isplitl [Ha]; · iexists _; iexact Ha
      iexists _; iexact Hp
    isplitl [HO]; · iapply (owesAt_intro m c); iexact HO
    isplitl [H0]; · iexact H0
    isplitl [H1]; · iexact H1
    isplitl [H2]; · iexact H2
    iexact H3
  · simp only [idle0_eq, idle1_eq, idle2_eq, idle3_of_not_last t hL, flush3_of_not_last t hL, before_0, before_1, before_2, after_0, after_1, after_2, after_3]
    by_cases hF : IsFirst t
    · have h0 : t.val % 4 = 0 := (isFirst_iff t).mp hF
      rw [Φ_pre_first m c t h0, Φ_post_other m c t (by omega), rsA_first m c t h0, ptA_first m c t h0]
      iintro ⟨⟨Ha, Hp⟩, ⟨%Wt, %hW, HO⟩, ⟨%d0, H0⟩, ⟨%d1, H1⟩, ⟨%d2, H2⟩, H3⟩
      iapply (run_first c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (xi m c t) (xj m c t) hF hL (iprop(owns (c : Thread nD τ) (st0_2 t) fullShare (iblk m c 2 t) ∗ ∃ d, owns (c : Thread nD τ) (st0_3 t) fullShare ((dats m 0 c).before 3 t d))))
      isplitl [H0]; · iexact H0
      isplitl [H1]; · iexact H1
      isplitl [H2 H3]; · isplitl [H2]; (· iexact H2); iexact H3
      isplitl [Ha]; · iexact Ha
      isplitl [Hp]; · iexact Hp
      iintro ⟨H0, H1, ⟨H2, H3⟩, Ha, Hp⟩
      isplitl [Ha Hp]
      · isplitl [Ha] <;> iassumption
      isplitl [HO]; · iapply (owesAt_intro m c); iexact HO
      isplitl [H0]; · iexact H0
      isplitl [H1]; · iexact H1
      isplitl [H2]; · iexact H2
      iexact H3
    · have h1 : t.val % 4 ≠ 0 := fun h => hF ((isFirst_iff t).mpr h)
      have h2 : t.val % 4 ≠ 3 := fun h => hL ((isLast_iff t).mpr h)
      rw [Φ_pre_other m c t h1, Φ_post_other m c t h2, rsA_step m c t h1, ptA_step m c t h1]
      iintro ⟨⟨Ha, Hp⟩, ⟨%Wt, %hW, HO⟩, ⟨%d0, H0⟩, ⟨%d1, H1⟩, ⟨%d2, H2⟩, H3⟩
      iapply (run_mid c t (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (xi m c t) (xj m c t) (rsB m c t h1) (ptB m c t h1) hF hL (iprop(owns (c : Thread nD τ) (st0_2 t) fullShare (iblk m c 2 t) ∗ ∃ d, owns (c : Thread nD τ) (st0_3 t) fullShare ((dats m 0 c).before 3 t d))))
      isplitl [H0]; · iexact H0
      isplitl [H1]; · iexact H1
      isplitl [H2 H3]; · isplitl [H2]; (· iexact H2); iexact H3
      isplitl [Ha]; · iexact Ha
      isplitl [Hp]; · iexact Hp
      iintro ⟨H0, H1, ⟨H2, H3⟩, Ha, Hp⟩
      isplitl [Ha Hp]
      · isplitl [Ha] <;> iassumption
      isplitl [HO]; · iapply (owesAt_intro m c); iexact HO
      isplitl [H0]; · iexact H0
      isplitl [H1]; · iexact H1
      isplitl [H2]; · iexact H2
      iexact H3

end Cert.KernelIdeal.Hand

end
-- ==== Proof.KLaunch.lean ====
/-
  The launch: every weakly fair execution of @main terminates; each windowed array ends at the library's account of
  its window (`Dat.arrAt` after the last point), and μ, which no window stages, ends as launched. The particles'
  buffer reaches the region once and is dealt to its two input windows as the two halves of its full share.
-/
import proofs.«151449_j48387101557205_1_alg».proof.Proof.KRun
import Idealize.ShloMosaic.Lib.Pipeline.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rounds library's launch element: every staging cell's owner at round 0 and a duty token per transfer. -/
abbrev u₀ : UR sig nD τ := initOf (Pipeline.cells cfgs cellOf_inj) (Pipeline.launchToks cfgs cellOf_inj)

/-- The unscoped buffers no window stages. -/
abbrev restRefs : Finset (Ref sig .tc) := (Finset.univ.filter fun b : Ref sig .tc => ¬ b.isScoped) \ Finset.univ.image (Pipeline.arrRef spec0)

theorem arg1_mem_rest : main_arg1 ∈ restRefs := by decide

/-- The buffers behind the windows' arrays are the particles', μ's reshaped copy and the result's. -/
theorem arrRefs_eq : Finset.univ.image (Pipeline.arrRef spec0) = [main_arg0, main_v0, main_v1].toFinset := by decide

/-- The buffers behind the arrays, whole at the entry contents, make the proof data's arrays at entry: the
    particles' full share splits into the halves its two windows hold. -/
theorem hsplit (c : Dev nD) : (Pipeline.arrBufs spec0 c (V m c) : sProp 𝕄) ⊢ (dats m 0 c).arrays ((dats m 0 c).arrAt · 0) := by
  unfold Pipeline.arrBufs Dat.arrays
  rw [bigSep_eq_bigSepL_of_eq _ arrRefs_eq (by decide), bigSep_W0]
  show iprop((((c : Thread nD τ).loc main_arg0) ↦{fullShare} V m c main_arg0) ∗ (((c : Thread nD τ).loc main_v0) ↦{fullShare} V m c main_v0)
      ∗ (((c : Thread nD τ).loc main_v1) ↦{fullShare} V m c main_v1)) ⊢ _
  iintro ⟨H0, H2, H3⟩
  ihave H01 := (pointsTo_share (PosShare.mem_left_op_right fullShare)).1 $$ H0
  icases H01 with ⟨Hl, Hr⟩
  isplitl [Hl]
  · rw [(arr_whole0 0).set_eq_univ]; iexact Hl
  isplitl [Hr]
  · rw [(arr_whole0 1).set_eq_univ]; iexact Hr
  isplitl [H2]
  · rw [(arr_whole0 2).set_eq_univ]; iexact H2
  · rw [(arr_whole0 3).set_eq_univ]; iexact H3

theorem hin (c : Dev nD) : iprop((emp : sProp 𝕄) ∗ Pipeline.scopedRest spec0 c) ⊢ (dats m 0 c).Φ 0 := by
  rw [scopedRest0_eq, show (dats m 0 c).Φ 0 = Φv m c 0 from rfl]
  unfold Φv; rw [dif_pos (by decide)]
  iintro ⟨-, ⟨%f, Hf⟩, ⟨%g, Hg⟩⟩
  isplitl [Hf]
  · iexists f; rw [owns_whole_eq]; iexists f; isplitr; (· ipureintro; rfl); iexact Hf
  · iexists g; rw [owns_whole_eq]; iexists g; isplitr; (· ipureintro; rfl); iexact Hg

theorem hout (c : Dev nD) : (dats m 0 c).Φ (Fin.last cfg0.N) ⊢ iprop((emp : sProp 𝕄) ∗ Pipeline.scopedRest spec0 c) := by
  rw [scopedRest0_eq, show (dats m 0 c).Φ (Fin.last cfg0.N) = Φv m c (Fin.last cfg0.N) from rfl]
  unfold Φv; rw [dif_pos (by decide)]; simp only [owns_whole_eq]
  iintro ⟨⟨%a, %f, %hf, Hf⟩, ⟨%p, %g, %hg, Hg⟩⟩
  isplitr; · iempintro
  isplitl [Hf]; · iexists f; iexact Hf
  iexists g; iexact Hg

/-- What the run leaves: each window's array at the library's account of it, the bypassing buffers as the region found them. -/
def RunPost (r : PUnit × MemSt nD τ sig (Elt F)) : Prop :=
  ∀ c : Dev nD, (∀ w : Fin cfg0.W, r.2.mem ((spec0 w).arr.view.loc (c : Thread nD τ)) = (dats m 0 c).arrAt w cfg0.N)
    ∧ ∀ b ∈ restRefs, r.2.mem ((c : Thread nD τ).loc b) = V m c b

theorem run_main : θ_run defs (onTc (τ := τ) (main (F := F))) ⟨m, fun _ => 0, ρ⟩ (RunPost m) :=
  Pipeline.θ_run_region_noSem_shared cfgs (dats m) () cellOf_inj (0 : Fin 1) winFacts₀0 emb₁ defs₀ 𝒱₀ m ρ main
    (hbody := fun c => (body_obligation m c).loose) (hne := block_pos0) (harr := arr_whole0) (hstage := stage_whole0)
    (howed := fun _ _ => rfl) (u₀ := u₀) (hu₀ := Entails.of_eq (ownU_emb₁ _))
    (V := V m) (hmain := hmain m 𝒱₀) (hsplit := hsplit m)
    (X := fun _ => iprop(emp)) (Y := fun _ => iprop(emp)) (Z := fun c => Pipeline.unscopedRest spec0 c (V m c))
    (hX := fun c => by iintro H; isplitr; (· iempintro); iexact H)
    (hin := hin m) (hout := hout m)
    (QY := fun c s => ∀ b ∈ restRefs, s.mem ((c : Thread nD τ).loc b) = V m c b)
    (hY := fun c s' => by
      iintro ⟨-, HU, HSI⟩
      unfold Pipeline.unscopedRest
      imodintro
      iapply (pointsTo_read_all restRefs (fun b => (c : Thread nD τ).loc b) (V m c) s')
      isplitl [HU] <;> iassumption)
    (hQ := fun _ h c => ⟨(h c).1, (h c).2⟩)

/-! ## Reading the final state -/

/-- The one host operation before the region reshapes μ into another buffer: both arguments reach the region as launched. -/
theorem V_main_arg0 (c : Dev nD) : V m c main_arg0 = m ((c : Thread nD τ).loc main_arg0) := by
  dsimp only [V, hostOps0]; after_results
theorem V_main_arg1 (c : Dev nD) : V m c main_arg1 = m ((c : Thread nD τ).loc main_arg1) := by
  dsimp only [V, hostOps0]; after_results
theorem V_main_v0 (c : Dev nD) :
    (V m c main_v0 : S1x16.Idx → Elt F .f32) = shapeCast S1x16 (m ((c : Thread nD τ).loc main_arg1)) shapeCasts_S16_S1x16 := by
  dsimp only [V, hostOps0]; after_results; rfl

variable {m}

theorem final_arg0 {r : PUnit × MemSt nD τ sig (Elt F)} (h : RunPost m r) (c : Dev nD) :
    r.2.mem ((c : Thread nD τ).loc main_arg0) = m ((c : Thread nD τ).loc main_arg0) :=
  ((h c).1 0).trans (((dats m 0 c).arrAt_in 0 rfl _).trans (V_main_arg0 m c))
theorem final_arg1 {r : PUnit × MemSt nD τ sig (Elt F)} (h : RunPost m r) (c : Dev nD) :
    r.2.mem ((c : Thread nD τ).loc main_arg1) = m ((c : Thread nD τ).loc main_arg1) :=
  ((h c).2 main_arg1 arg1_mem_rest).trans (V_main_arg1 m c)
theorem final_v1 {r : PUnit × MemSt nD τ sig (Elt F)} (h : RunPost m r) (c : Dev nD) :
    r.2.mem ((c : Thread nD τ).loc main_v1) = (dats m 0 c).arrAt 3 cfg0.N :=
  (h c).1 3

variable (m)

/-- The frame: @main runs to the end and both argument arrays end as launched. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨final_arg0 h c, final_arg1 h c⟩) (run_main m ρ)

end Cert.KernelIdeal.Hand

end
-- ==== Proof.Spec.lean ====
/-
  The two closed forms this certificate joins, over plain index types, on the extended reals.

  Particles are rows `X i` (i < 4096) of 16 coordinates, `μ` a 16-vector. With the RBF weight
  `g i j = exp (-|X i - X j|² / 2)`, the Stein variational direction at particle `i` is
      φ i = ( Σ_j g i j · (μ - X j)  +  Σ_j g j i · (X i - X j) ) / 4096.
  `outR` spells it the way the reference computes it: the squared distance as a sum of squared
  differences, the score term as a matrix product with `-(X - μ)`, the repulsive term as the sum
  over the FIRST particle index of `-(X a - X b) · g a b`, a final quotient by 4096.
  `outK` spells it the way the kernel computes it: the squared distance expanded as
  `|X i|² + |X j|² - 2 X i·X j` and clamped at zero, the weights summed along a row in four tiles
  of 1024 columns (`rowsumK`), the weighted particle sum likewise (`partK`), and
      φ i = ((μ + X i · 1) · rowsum i - part i · 2) · 2⁻¹².
  Every float literal is kept as the extended real its bit pattern denotes.
-/
import Idealize.ShloMosaic.PureOps.Ideal.Laws
import Idealize.ShloMosaic.Lib.ValueIdx

noncomputable section

namespace Cert.Spec

open Idealize.ShloMosaic

/-- The literals of the two programs, as the extended reals their f32 patterns denote. -/
def zero : EReal := Ideal.ofBits .f32 0x00000000#32
def two : EReal := Ideal.ofBits .f32 0x40000000#32
def negHalf : EReal := Ideal.ofBits .f32 0xBF000000#32
def one : EReal := Ideal.ofBits .f32 0x3F800000#32
def invN : EReal := Ideal.ofBits .f32 0x39800000#32
def nF : EReal := Ideal.ofBits .f32 0x45800000#32

/-- Column `jj` of column tile `J`: particle `1024 · J + jj`. -/
def tj (J : Fin 4) (jj : Fin 1024) : Fin 4096 := ⟨1024 * J.val + jj.val, by have := J.isLt; have := jj.isLt; omega⟩

/-- An f32[4096, 16] array at the ideal values, as its rows; an f32[16] array as a vector. -/
def rows (x : FVec Ideal ⟨2, ![4096, 16]⟩ .f32) : Fin 4096 → Fin 16 → EReal := fun i d => x (ValueIdx.ix2 i d)
def vec (v : FVec Ideal ⟨1, ![16]⟩ .f32) : Fin 16 → EReal := fun d => v (ValueIdx.ix1 d)

/-! ## The kernel's form -/

/-- A row's squared norm, and two rows' inner product. -/
def nsq (X : Fin 4096 → Fin 16 → EReal) (i : Fin 4096) : EReal := ∑ d : Fin 16, X i d * X i d
def dotp (X : Fin 4096 → Fin 16 → EReal) (i j : Fin 4096) : EReal := ∑ d : Fin 16, X i d * X j d

/-- The weight as the kernel computes it: the expanded squared distance, clamped at zero, times -1/2, exponentiated. -/
def gramK (X : Fin 4096 → Fin 16 → EReal) (i j : Fin 4096) : EReal :=
  Ideal.exp (max ((nsq X i + nsq X j) - two * dotp X i j) zero * negHalf)

/-- One column tile's contribution to a row's weight sum, and to its weighted particle sum. -/
def rowTile (X : Fin 4096 → Fin 16 → EReal) (i : Fin 4096) (J : Fin 4) : EReal := ∑ jj : Fin 1024, gramK X i (tj J jj)
def partTile (X : Fin 4096 → Fin 16 → EReal) (i : Fin 4096) (d : Fin 16) (J : Fin 4) : EReal :=
  ∑ jj : Fin 1024, gramK X i (tj J jj) * X (tj J jj) d

/-- The accumulators after the four column tiles, from a zeroed scratch. -/
def rowsumK (X : Fin 4096 → Fin 16 → EReal) (i : Fin 4096) : EReal :=
  (((zero + rowTile X i 0) + rowTile X i 1) + rowTile X i 2) + rowTile X i 3
def partK (X : Fin 4096 → Fin 16 → EReal) (i : Fin 4096) (d : Fin 16) : EReal :=
  (((zero + partTile X i d 0) + partTile X i d 1) + partTile X i d 2) + partTile X i d 3

/-- What the kernel writes at `(i, d)`. -/
def outK (X : Fin 4096 → Fin 16 → EReal) (μ : Fin 16 → EReal) (i : Fin 4096) (d : Fin 16) : EReal :=
  ((μ d + X i d * one) * rowsumK X i - partK X i d * two) * invN

/-! ## The reference's form -/

/-- The squared distance as a sum of squared differences (from the reduction's initial value). -/
def sqR (X : Fin 4096 → Fin 16 → EReal) (i j : Fin 4096) : EReal := zero + ∑ d : Fin 16, (X i d - X j d) * (X i d - X j d)
/-- The weight as the reference computes it. -/
def gramR (X : Fin 4096 → Fin 16 → EReal) (i j : Fin 4096) : EReal := Ideal.exp (Ideal.div (-(sqR X i j)) two)
/-- The score term: the weights times `-(X - μ)`, summed over the second particle index. -/
def scoreTermR (X : Fin 4096 → Fin 16 → EReal) (μ : Fin 16 → EReal) (i : Fin 4096) (d : Fin 16) : EReal :=
  ∑ j : Fin 4096, gramR X i j * (-(X j d - μ d))
/-- The repulsive term: `-(X a - X i) / 1 · g a i` summed over the FIRST particle index `a` (from the initial value). -/
def gradTermR (X : Fin 4096 → Fin 16 → EReal) (i : Fin 4096) (d : Fin 16) : EReal :=
  zero + ∑ a : Fin 4096, (-(Ideal.div (X a d - X i d) one)) * gramR X a i
/-- What the reference returns at `(i, d)`. -/
def outR (X : Fin 4096 → Fin 16 → EReal) (μ : Fin 16 → EReal) (i : Fin 4096) (d : Fin 16) : EReal :=
  Ideal.div (scoreTermR X μ i d + gradTermR X i d) nF

end Cert.Spec

end
-- ==== Proof.KBlocks.lean ====
/-
  The input blocks at a point, read off the launch arrays (at the ideal values). Point t runs row tile t / 4 against
  column tile t % 4: the row block's entry (r, d) is particle 1024·(t / 4) + r's coordinate d, the column block's
  entry (r, d) is particle 1024·(t % 4) + r's; μ's one-row block is μ.
-/
import proofs.«151449_j48387101557205_1_alg».proof.Proof.KRun
import proofs.«151449_j48387101557205_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.StableHlo

variable (m : (ℓ : Loc nD τ sig) → Buf (Elt Ideal) ℓ)

/-- The particles' array and μ as launched on core `c`. -/
abbrev Xarr (c : Dev nD) : FVec Ideal S4096x16 .f32 := m ((c : Thread nD τ).loc main_arg0)
abbrev Marr (c : Dev nD) : FVec Ideal S16 .f32 := m ((c : Thread nD τ).loc main_arg1)

/-- Point `t`'s row tile and column tile. -/
def tileI (t : Fin cfg0.N) : Fin 4 := ⟨t.val / 4, by have h : t.val < 16 := lt_of_lt_of_eq t.isLt N_sixteen; omega⟩
def tileJ (t : Fin cfg0.N) : Fin 4 := ⟨t.val % 4, by omega⟩

/-- The region finds the particles' array as launched (the reshape of μ writes another buffer). -/
theorem V_arg0 (c : Dev nD) : V m c main_arg0 = Xarr m c := by
  dsimp only [V, hostOps0]; after_results

/-- The region finds μ's reshaped copy: μ with a unit axis in front. -/
theorem V_v0 (c : Dev nD) :
    (V m c main_v0 : S1x16.Idx → Elt Ideal .f32) = shapeCast S1x16 (Marr m c) shapeCasts_S16_S1x16 := by
  dsimp only [V, hostOps0]; after_results; rfl

/-- The printed index maps, decided once over the grid's sixteen points: window 0 follows the row tile t / 4, window 1
    the column tile t % 4, window 2 stays at block (0, 0). -/
theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

/-- Where entry (r, d) of window 0's block at point `t` sits in the array: block index × block size + offset, per axis. -/
theorem emb0 (t : Fin cfg0.N) (r : Fin 1024) (d : Fin 16) :
    ((cfg0.win 0).blk t).view.emb (ix2 r d) = ix2 (Cert.Spec.tj (tileI t) r) d := by
  obtain ⟨e0, e1⟩ := idx0 t
  funext a; apply Fin.ext
  match a with
  | ⟨0, _⟩ =>
    show win0_0.index t (0 : Fin 2) * 1024 + 1 * r.val = 1024 * (t.val / 4) + r.val
    omega
  | ⟨1, _⟩ =>
    show win0_0.index t (1 : Fin 2) * 16 + 1 * d.val = d.val
    omega

theorem emb1 (t : Fin cfg0.N) (r : Fin 1024) (d : Fin 16) :
    ((cfg0.win 1).blk t).view.emb (ix2 r d) = ix2 (Cert.Spec.tj (tileJ t) r) d := by
  obtain ⟨e0, e1⟩ := idx1 t
  funext a; apply Fin.ext
  match a with
  | ⟨0, _⟩ =>
    show win0_1.index t (0 : Fin 2) * 1024 + 1 * r.val = 1024 * (t.val % 4) + r.val
    omega
  | ⟨1, _⟩ =>
    show win0_1.index t (1 : Fin 2) * 16 + 1 * d.val = d.val
    omega

theorem emb2 (t : Fin cfg0.N) (d : Fin 16) :
    ((cfg0.win 2).blk t).view.emb (ix2 0 d) = ix2 0 d := by
  obtain ⟨e0, e1⟩ := idx2 t
  funext a; apply Fin.ext
  match a with
  | ⟨0, _⟩ =>
    show win0_2.index t (0 : Fin 2) * 1 + 1 * 0 = 0
    omega
  | ⟨1, _⟩ =>
    show win0_2.index t (1 : Fin 2) * 16 + 1 * d.val = d.val
    omega

/-- The row block at point `t`. -/
theorem xi_apply (c : Dev nD) (t : Fin cfg0.N) (r : Fin 1024) (d : Fin 16) :
    xi m c t (ix2 r d) = Xarr m c (ix2 (Cert.Spec.tj (tileI t) r) d) := by
  show ((cfg0.win 0).blk t).view.read (Elt Ideal) (V m c (Pipeline.arrRef spec0 0)) (ix2 r d) = _
  rw [View.read_apply]
  show V m c main_arg0 (((cfg0.win 0).blk t).view.emb (ix2 r d)) = _
  rw [emb0, V_arg0]

/-- The column block at point `t`. -/
theorem xj_apply (c : Dev nD) (t : Fin cfg0.N) (r : Fin 1024) (d : Fin 16) :
    xj m c t (ix2 r d) = Xarr m c (ix2 (Cert.Spec.tj (tileJ t) r) d) := by
  show ((cfg0.win 1).blk t).view.read (Elt Ideal) (V m c (Pipeline.arrRef spec0 1)) (ix2 r d) = _
  rw [View.read_apply]
  show V m c main_arg0 (((cfg0.win 1).blk t).view.emb (ix2 r d)) = _
  rw [emb1, V_arg0]

/-- μ's block at point `t`: the reshaped copy's one row is μ. -/
theorem mub_apply (c : Dev nD) (t : Fin cfg0.N) (d : Fin 16) :
    mub m c t (ix2 0 d) = Marr m c (ix1 d) := by
  show ((cfg0.win 2).blk t).view.read (Elt Ideal) (V m c (Pipeline.arrRef spec0 2)) (ix2 0 d) = _
  rw [View.read_apply]
  show (V m c main_v0 : S1x16.Idx → Elt Ideal .f32) (((cfg0.win 2).blk t).view.emb (ix2 0 d)) = _
  rw [emb2, V_v0]
  exact shapeCast_a_1a_apply (Marr m c) shapeCasts_S16_S1x16 (0 : Fin 1) d

end Cert.KernelIdeal.Hand

end
-- ==== Proof.PayVal.lean ====
/-
  The kernel body's stored values at the ideal values, read at an index of their block.
-/
import proofs.«151449_j48387101557205_1_alg».proof.Proof.Gen.KernelIdeal.Skeleton
import proofs.«151449_j48387101557205_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Cert.KernelIdeal Cert.KernelIdeal.Gen Idealize.ShloMosaic Idealize.ShloMosaic.ValueIdx

/-! ## Layout operations on a column, and a lane sum, read at coordinates -/

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the lanes of a matrix, at row `r`, is the sum of the row's entries. -/
theorem laneSum_apply {a b : ℕ} (v : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (r : Fin a) :
    multiReduction (F := Ideal) .add [1] ⟨1, ![a]⟩ v acc h hφ hacc (ix1 r) = ∑ d : Fin b, v (ix2 r d) := by
  refine (Ideal.multiReduction_add_single v acc h hφ hacc (ix1 r)).trans ?_
  show ∑ d : Fin b, v (h.lift (ix1 r) d) = _
  refine Finset.sum_congr rfl fun d _ => congrArg v ?_
  funext c
  match c with
  | ⟨0, _⟩ => rfl
  | ⟨1, _⟩ => rfl

/-! ## The two products read at an index -/

/-- The operand indices of the first product (rows of the first block against rows of the second), axis by axis. -/
theorem lhs_gram_0 (i : S1024x1024.Idx) (q : dot_S1024x16_S1024x16_S1024x1024_1_1_0_0_n_n.contr.Idx) :
    (dot_S1024x16_S1024x16_S1024x1024_1_1_0_0_n_n.lhsIdx i q 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem lhs_gram_1 (i : S1024x1024.Idx) (q : dot_S1024x16_S1024x16_S1024x1024_1_1_0_0_n_n.contr.Idx) :
    (dot_S1024x16_S1024x16_S1024x1024_1_1_0_0_n_n.lhsIdx i q 1).val = (q ⟨0, by decide⟩).val :=
  dot_S1024x16_S1024x16_S1024x1024_1_1_0_0_n_n.lhsIdx_val_of_single rfl i q
theorem rhs_gram_0 (i : S1024x1024.Idx) (q : dot_S1024x16_S1024x16_S1024x1024_1_1_0_0_n_n.contr.Idx) :
    (dot_S1024x16_S1024x16_S1024x1024_1_1_0_0_n_n.rhsIdx i q 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem rhs_gram_1 (i : S1024x1024.Idx) (q : dot_S1024x16_S1024x16_S1024x1024_1_1_0_0_n_n.contr.Idx) :
    (dot_S1024x16_S1024x16_S1024x1024_1_1_0_0_n_n.rhsIdx i q 1).val = (q ⟨0, by decide⟩).val :=
  dot_S1024x16_S1024x16_S1024x1024_1_1_0_0_n_n.rhsIdx_val_of_single rfl i q

/-- The first product at `(r, jj)`: row `r` of the left block against row `jj` of the right one. -/
theorem gram_apply (prec : Option ContractPrecision) (y0 y1 : FVec Ideal S1024x16 .f32) (r jj : Fin 1024) :
    matmul dot_S1024x16_S1024x16_S1024x1024_1_1_0_0_n_n prec y0 y1 (constant (F := Ideal) S1024x1024 .f32 0x00000000#32) (ix2 r jj)
      = ∑ d : Fin 16, y0 (ix2 r d) * y1 (ix2 jj d) := by
  simp only [matmul]
  rw [Ideal.matmul_constant_zero_apply, ← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 r jj) ((contrEquiv1 dot_S1024x16_S1024x16_S1024x1024_1_1_0_0_n_n 16 rfl rfl).symm k) = ix2 r k := funext fun a => Fin.ext (by
    match a with
    | ⟨0, _⟩ => exact lhs_gram_0 _ _
    | ⟨1, _⟩ => exact (lhs_gram_1 _ _).trans hk)
  have er : dot_S1024x16_S1024x16_S1024x1024_1_1_0_0_n_n.rhsIdx (ix2 r jj) ((contrEquiv1 dot_S1024x16_S1024x16_S1024x1024_1_1_0_0_n_n 16 rfl rfl).symm k) = ix2 jj k := funext fun a => Fin.ext (by
    match a with
    | ⟨0, _⟩ => exact rhs_gram_0 _ _
    | ⟨1, _⟩ => exact (rhs_gram_1 _ _).trans hk)
  rw [el, er]

/-- The operand indices of the second product (the weights against the second block), axis by axis. -/
theorem lhs_wsum_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem lhs_wsum_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q
theorem rhs_wsum_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q
theorem rhs_wsum_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- The second product at `(r, d)`: row `r` of the weights against column `d` of the block. -/
theorem wsum_apply {φ₁ φ₂ : FTy} (prec : Option ContractPrecision) (w : FVec Ideal S1024x1024 φ₁) (y : FVec Ideal S1024x16 φ₂)
    (r : Fin 1024) (d : Fin 16) :
    matmul dot_S1024x1024_S1024x16_S1024x16_1_0_0_1_n_n prec w y (constant (F := Ideal) S1024x16 .f32 0x00000000#32) (ix2 r d)
      = ∑ jj : Fin 1024, w (ix2 r jj) * y (ix2 jj d) := by
  simp only [matmul]
  rw [Ideal.matmul_constant_zero_apply, ← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 r d) ((contrEquiv1 dot_S1024x1024_S1024x16_S1024x16_1_0_0_1_n_n 1024 rfl rfl).symm k) = ix2 r k := funext fun a => Fin.ext (by
    match a with
    | ⟨0, _⟩ => exact lhs_wsum_0 _ _
    | ⟨1, _⟩ => exact (lhs_wsum_1 _ _).trans hk)
  have er : dot_S1024x1024_S1024x16_S1024x16_1_0_0_1_n_n.rhsIdx (ix2 r d) ((contrEquiv1 dot_S1024x1024_S1024x16_S1024x16_1_0_0_1_n_n 1024 rfl rfl).symm k) = ix2 k d := funext fun a => Fin.ext (by
    match a with
    | ⟨0, _⟩ => exact (rhs_wsum_0 _ _).trans hk
    | ⟨1, _⟩ => exact rhs_wsum_1 _ _)
  rw [el, er]

/-! ## The stored values -/

/-- An exponential at an index is the exponential of the element. -/
theorem exp_apply {s : Shape} {φ : FTy} (a : FVec Ideal s φ) (i : s.Idx) : exp a i = Ideal.exp (a i) := rfl

/-- The squared norms of a block's rows as a column: at `(r, u)` the sum of the squares of row `r`. -/
theorem sqnormCol_apply (v : FVec Ideal S1024x16 .f32) (hφ : FKind.Formats .f32)
    (hacc : (0x00000000#32 : BitVec (FTy.bits .f32)) = FKind.add.neutral .f32 hφ) (r : Fin 1024) (u : Fin 1) :
    shapeCast S1024x1 (multiReduction (F := Ideal) .add [1] S1024 (mulf v v) 0x00000000#32 reduces_S1024x16_S1024 hφ hacc)
        shapeCasts_S1024_S1024x1 (ix2 r u)
      = ∑ d : Fin 16, v (ix2 r d) * v (ix2 r d) := by
  rw [shapeCast_a_a1_apply, laneSum_apply]
  rfl

/-- The two resets store zeros. -/
theorem pay3_apply (y : S1024x1.Idx) : (k0_pay3 (F := Ideal)) y = Cert.Spec.zero := by
  unfold k0_pay3 Cert.Spec.zero
  show shapeCast S1024x1 (broadcast S1024x1 (Scalar.ofBits (F := Ideal) .f32 0x00000000#32)) shapeCasts_S1024x1_S1024x1 y = _
  rw [shapeCast_self]
  rfl
theorem pay4_apply (y : S1024x16.Idx) : (k0_pay4 (F := Ideal)) y = Cert.Spec.zero := by
  unfold k0_pay4 Cert.Spec.zero
  show shapeCast S1024x16 (broadcast S1024x16 (Scalar.ofBits (F := Ideal) .f32 0x00000000#32)) shapeCasts_S1024x16_S1024x16 y = _
  rw [shapeCast_self]
  rfl

/-- The store of the weighted-sum accumulator goes through an identity reshape. -/
theorem pay1_eq (v : FVec Ideal S1024x16 .f32) : k0_pay1 v = v := by
  unfold k0_pay1
  exact shapeCast_self v _

/-- The weight tile at `(r, jj)`: row `r` of the first block against row `jj` of the second. -/
theorem pay5_apply (x0 x1 : Vec Ideal S1024x16 .f32) (r jj : Fin 1024) :
    k0_pay5 x0 x1 (ix2 r jj)
      = Ideal.exp (max (((∑ d : Fin 16, x0 (ix2 r d) * x0 (ix2 r d)) + ∑ d : Fin 16, x1 (ix2 jj d) * x1 (ix2 jj d))
          - Cert.Spec.two * ∑ d : Fin 16, x0 (ix2 r d) * x1 (ix2 jj d)) Cert.Spec.zero * Cert.Spec.negHalf) := by
  unfold k0_pay5 Cert.Spec.zero Cert.Spec.two Cert.Spec.negHalf
  simp only [exp_apply, mulf_apply, maximumf_apply, subf_apply, addf_apply, broadcast_apply, broadcastTo_a1_ab_apply,
    broadcastTo_1b_ab_apply, gram_apply]
  rw [transpose_ix2_apply]
  exact congrArg Ideal.exp (congrArg₂ (· * ·) (congrArg₂ max (congrArg₂ (· - ·)
    (congrArg₂ (· + ·) (sqnormCol_apply x0 _ _ r 0) (sqnormCol_apply x1 _ _ jj 0)) rfl) rfl) rfl)

/-- The row-sum accumulator after a step: what it held plus the tile's row sum. -/
theorem pay6_apply (x0 x1 : Vec Ideal S1024x16 .f32) (a : Vec Ideal S1024x1 .f32) (r : Fin 1024) :
    k0_pay6 x0 x1 a (ix2 r 0) = a (ix2 r 0) + ∑ jj : Fin 1024, k0_pay5 x0 x1 (ix2 r jj) := by
  unfold k0_pay6
  simp only [shapeCast_self, addf_apply, shapeCast_a_a1_apply]
  exact congrArg (a (ix2 r 0) + ·) (laneSum_apply (k0_pay5 x0 x1) _ _ _ _ r)

/-- The weighted-sum accumulator after a step: what it held plus the tile's weights times the second block. -/
theorem pay7_apply (x0 x1 : Vec Ideal S1024x16 .f32) (p : Vec Ideal S1024x16 .f32) (r : Fin 1024) (d : Fin 16) :
    k0_pay7 x0 x1 p (ix2 r d) = p (ix2 r d) + ∑ jj : Fin 1024, k0_pay5 x0 x1 (ix2 r jj) * x1 (ix2 jj d) := by
  unfold k0_pay7
  simp only [addf_apply, wsum_apply, truncf_apply]

/-- The output block of a last step. -/
theorem pay2_apply (x0 : Vec Ideal S1024x16 .f32) (mu : Vec Ideal S1x16 .f32) (rs : Vec Ideal S1024x1 .f32)
    (pt : Vec Ideal S1024x16 .f32) (r : Fin 1024) (d : Fin 16) :
    k0_pay2 x0 mu rs pt (ix2 r d)
      = ((mu (ix2 0 d) + x0 (ix2 r d) * Cert.Spec.one) * rs (ix2 r 0) - pt (ix2 r d) * Cert.Spec.two) * Cert.Spec.invN := by
  unfold k0_pay2 Cert.Spec.one Cert.Spec.two Cert.Spec.invN
  simp only [mulf_apply, subf_apply, addf_apply, broadcast_apply, broadcastTo_a1_ab_apply, broadcastTo_1b_ab_apply,
    shapeCast_self]
  rfl

end Cert.KernelIdeal.PayVal

end
-- ==== Proof.KAcc.lean ====
/-
  The output block of a row tile's last point is the kernel's closed form: with the scratch accumulators unrolled
  over the row tile's four points (zeroed, then one column tile added per point), entry (r, d) of the block stored
  at point t = 4·I + 3 is `Cert.Spec.outK` at particle 1024·I + r and coordinate d.
-/
import proofs.«151449_j48387101557205_1_alg».proof.Proof.KBlocks
import proofs.«151449_j48387101557205_1_alg».proof.Proof.PayVal
import proofs.«151449_j48387101557205_1_alg».proof.Proof.Spec
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! ## The steps' values as plain payloads -/

private theorem hz2 : (![0, 0] : Fin 2 → Nat) = fun _ => 0 := by funext a; fin_cases a <;> rfl

section Collapse

variable {F : FTy → Type} [FloatOps F] [∀ e, Nonempty (Elt F e)]

/-- A whole-block store of a value computed from whole-block loads is that value of the blocks themselves. -/
theorem rsStep_eq (a : Vec F S1024x1 .f32) (x0 x1 : Vec F S1024x16 .f32) : rsStep a x0 x1 = k0_pay6 x0 x1 a := by
  unfold rsStep
  rw [View.canon_unit_zero hz2]
  simp only [View.ld_unit_zero (S := S1024x16) hz2, View.ld_unit_zero (S := S1024x1) hz2]
theorem ptStep_eq (p : Vec F S1024x16 .f32) (x0 x1 : Vec F S1024x16 .f32) : ptStep p x0 x1 = k0_pay1 (k0_pay7 x0 x1 p) := by
  unfold ptStep
  rw [View.canon_unit_zero hz2]
  simp only [View.ld_unit_zero (S := S1024x16) hz2]
/-- A first step reads back the zeros it has just stored. -/
theorem rsFirst_eq (x0 x1 : Vec F S1024x16 .f32) : rsFirst x0 x1 = k0_pay6 x0 x1 k0_pay3 := by
  unfold rsFirst
  rw [View.canon_cons_unit_zero (S := S1024x1) hz2, View.readCov_unit_zero (S := S1024x1) _ hz2]
  simp only [View.ld_unit_zero (S := S1024x16) hz2]
theorem ptFirst_eq (x0 x1 : Vec F S1024x16 .f32) : ptFirst x0 x1 = k0_pay1 (k0_pay7 x0 x1 k0_pay4) := by
  unfold ptFirst
  rw [View.canon_cons_unit_zero (S := S1024x16) hz2, View.readCov_unit_zero (S := S1024x16) _ hz2]
  simp only [View.ld_unit_zero (S := S1024x16) hz2]
/-- A last step reads back the accumulators it has just stored. -/
theorem outLast_eq (a : Vec F S1024x1 .f32) (p : Vec F S1024x16 .f32) (x0 x1 : Vec F S1024x16 .f32) (x2 : Vec F S1x16 .f32) :
    outLast a p x0 x1 x2 = k0_pay2 x0 x2 (k0_pay6 x0 x1 a) (k0_pay1 (k0_pay7 x0 x1 p)) := by
  unfold outLast
  rw [View.canon_unit_zero hz2, View.readCov_unit_zero (S := S1024x1) _ hz2, View.readCov_unit_zero (S := S1024x16) _ hz2]
  simp only [View.ld_unit_zero (S := S1024x16) hz2, View.ld_unit_zero (S := S1024x1) hz2, View.ld_unit_zero (S := S1x16) hz2]

end Collapse

variable (m : (ℓ : Loc nD τ sig) → Buf (Elt Ideal) ℓ)

/-! ## The tiles of a point -/

theorem tileI_eq_of_div (j k : ℕ) (hj : j < cfg0.N) (hk : k < cfg0.N) (h : j / 4 = k / 4) :
    tileI ⟨j, hj⟩ = tileI ⟨k, hk⟩ := Fin.ext h
theorem tileJ_eq_of_mod (j : ℕ) (hj : j < cfg0.N) (q : Fin 4) (h : j % 4 = q.val) : tileJ ⟨j, hj⟩ = q := Fin.ext h

/-! ## The weight tile of a point, and its two sums -/

/-- Entry (r, jj) of point `s`'s weight tile is the kernel's weight between the row tile's particle r and the column tile's particle jj. -/
theorem gram_at (c : Dev nD) (s : Fin cfg0.N) (r jj : Fin 1024) :
    k0_pay5 (xi m c s) (xj m c s) (ix2 r jj)
      = Cert.Spec.gramK (Cert.Spec.rows (Xarr m c)) (Cert.Spec.tj (tileI s) r) (Cert.Spec.tj (tileJ s) jj) := by
  rw [PayVal.pay5_apply]
  unfold Cert.Spec.gramK Cert.Spec.nsq Cert.Spec.dotp Cert.Spec.rows
  simp only [xi_apply, xj_apply]

theorem rowTile_at (c : Dev nD) (s : Fin cfg0.N) (r : Fin 1024) :
    ∑ jj : Fin 1024, k0_pay5 (xi m c s) (xj m c s) (ix2 r jj)
      = Cert.Spec.rowTile (Cert.Spec.rows (Xarr m c)) (Cert.Spec.tj (tileI s) r) (tileJ s) := by
  unfold Cert.Spec.rowTile
  exact Finset.sum_congr rfl fun jj _ => gram_at m c s r jj

theorem partTile_at (c : Dev nD) (s : Fin cfg0.N) (r : Fin 1024) (d : Fin 16) :
    ∑ jj : Fin 1024, k0_pay5 (xi m c s) (xj m c s) (ix2 r jj) * xj m c s (ix2 jj d)
      = Cert.Spec.partTile (Cert.Spec.rows (Xarr m c)) (Cert.Spec.tj (tileI s) r) d (tileJ s) := by
  unfold Cert.Spec.partTile
  refine Finset.sum_congr rfl fun jj _ => ?_
  rw [gram_at, xj_apply]
  rfl

/-! ## The accumulators, point by point -/

theorem rsA_zero_apply (c : Dev nD) (k : ℕ) (hk : k < cfg0.N) (h : k % 4 = 0) (r : Fin 1024) :
    rsA m c k hk (ix2 r 0)
      = Cert.Spec.zero + Cert.Spec.rowTile (Cert.Spec.rows (Xarr m c)) (Cert.Spec.tj (tileI ⟨k, hk⟩) r) (tileJ ⟨k, hk⟩) := by
  have e : rsA m c k hk = rsFirst (xi m c ⟨k, hk⟩) (xj m c ⟨k, hk⟩) := rsA_first m c ⟨k, hk⟩ h
  rw [e, rsFirst_eq, PayVal.pay6_apply, PayVal.pay3_apply, rowTile_at]

theorem rsA_succ_apply (c : Dev nD) (k : ℕ) (hk : k + 1 < cfg0.N) (h : (k + 1) % 4 ≠ 0) (r : Fin 1024) :
    rsA m c (k + 1) hk (ix2 r 0)
      = rsA m c k (Nat.lt_of_succ_lt hk) (ix2 r 0)
        + Cert.Spec.rowTile (Cert.Spec.rows (Xarr m c)) (Cert.Spec.tj (tileI ⟨k + 1, hk⟩) r) (tileJ ⟨k + 1, hk⟩) := by
  have e : rsA m c (k + 1) hk = rsStep (rsA m c k (Nat.lt_of_succ_lt hk)) (xi m c ⟨k + 1, hk⟩) (xj m c ⟨k + 1, hk⟩) :=
    rsA_step m c ⟨k + 1, hk⟩ h (Nat.lt_of_succ_lt hk)
  rw [e, rsStep_eq, PayVal.pay6_apply, rowTile_at]

theorem ptA_zero_apply (c : Dev nD) (k : ℕ) (hk : k < cfg0.N) (h : k % 4 = 0) (r : Fin 1024) (d : Fin 16) :
    ptA m c k hk (ix2 r d)
      = Cert.Spec.zero + Cert.Spec.partTile (Cert.Spec.rows (Xarr m c)) (Cert.Spec.tj (tileI ⟨k, hk⟩) r) d (tileJ ⟨k, hk⟩) := by
  have e : ptA m c k hk = ptFirst (xi m c ⟨k, hk⟩) (xj m c ⟨k, hk⟩) := ptA_first m c ⟨k, hk⟩ h
  rw [e, ptFirst_eq, PayVal.pay1_eq, PayVal.pay7_apply, PayVal.pay4_apply, partTile_at]

theorem ptA_succ_apply (c : Dev nD) (k : ℕ) (hk : k + 1 < cfg0.N) (h : (k + 1) % 4 ≠ 0) (r : Fin 1024) (d : Fin 16) :
    ptA m c (k + 1) hk (ix2 r d)
      = ptA m c k (Nat.lt_of_succ_lt hk) (ix2 r d)
        + Cert.Spec.partTile (Cert.Spec.rows (Xarr m c)) (Cert.Spec.tj (tileI ⟨k + 1, hk⟩) r) d (tileJ ⟨k + 1, hk⟩) := by
  have e : ptA m c (k + 1) hk = ptStep (ptA m c k (Nat.lt_of_succ_lt hk)) (xi m c ⟨k + 1, hk⟩) (xj m c ⟨k + 1, hk⟩) :=
    ptA_step m c ⟨k + 1, hk⟩ h (Nat.lt_of_succ_lt hk)
  rw [e, ptStep_eq, PayVal.pay1_eq, PayVal.pay7_apply, partTile_at]

/-- After a row tile's last point the row-sum scratch holds the four tiles' sums, added in order from zero. -/
theorem rsA_last_apply (c : Dev nD) (k : ℕ) (h3 : k + 1 + 1 + 1 < cfg0.N) (h : k % 4 = 0) (r : Fin 1024) :
    rsA m c (k + 1 + 1 + 1) h3 (ix2 r 0)
      = Cert.Spec.rowsumK (Cert.Spec.rows (Xarr m c)) (Cert.Spec.tj (tileI ⟨k + 1 + 1 + 1, h3⟩) r) := by
  have h2 : k + 1 + 1 < cfg0.N := Nat.lt_of_succ_lt h3
  have h1 : k + 1 < cfg0.N := Nat.lt_of_succ_lt h2
  have h0 : k < cfg0.N := Nat.lt_of_succ_lt h1
  rw [rsA_succ_apply m c (k + 1 + 1) h3 (by omega), rsA_succ_apply m c (k + 1) h2 (by omega),
    rsA_succ_apply m c k h1 (by omega), rsA_zero_apply m c k h0 h]
  rw [tileI_eq_of_div k (k + 1 + 1 + 1) h0 h3 (by omega), tileI_eq_of_div (k + 1) (k + 1 + 1 + 1) h1 h3 (by omega),
    tileI_eq_of_div (k + 1 + 1) (k + 1 + 1 + 1) h2 h3 (by omega),
    tileJ_eq_of_mod k h0 0 (by show k % 4 = 0; omega), tileJ_eq_of_mod (k + 1) h1 1 (by show (k + 1) % 4 = 1; omega),
    tileJ_eq_of_mod (k + 1 + 1) h2 2 (by show (k + 1 + 1) % 4 = 2; omega),
    tileJ_eq_of_mod (k + 1 + 1 + 1) h3 3 (by show (k + 1 + 1 + 1) % 4 = 3; omega)]
  rfl

/-- Likewise the weighted-sum scratch. -/
theorem ptA_last_apply (c : Dev nD) (k : ℕ) (h3 : k + 1 + 1 + 1 < cfg0.N) (h : k % 4 = 0) (r : Fin 1024) (d : Fin 16) :
    ptA m c (k + 1 + 1 + 1) h3 (ix2 r d)
      = Cert.Spec.partK (Cert.Spec.rows (Xarr m c)) (Cert.Spec.tj (tileI ⟨k + 1 + 1 + 1, h3⟩) r) d := by
  have h2 : k + 1 + 1 < cfg0.N := Nat.lt_of_succ_lt h3
  have h1 : k + 1 < cfg0.N := Nat.lt_of_succ_lt h2
  have h0 : k < cfg0.N := Nat.lt_of_succ_lt h1
  rw [ptA_succ_apply m c (k + 1 + 1) h3 (by omega), ptA_succ_apply m c (k + 1) h2 (by omega),
    ptA_succ_apply m c k h1 (by omega), ptA_zero_apply m c k h0 h]
  rw [tileI_eq_of_div k (k + 1 + 1 + 1) h0 h3 (by omega), tileI_eq_of_div (k + 1) (k + 1 + 1 + 1) h1 h3 (by omega),
    tileI_eq_of_div (k + 1 + 1) (k + 1 + 1 + 1) h2 h3 (by omega),
    tileJ_eq_of_mod k h0 0 (by show k % 4 = 0; omega), tileJ_eq_of_mod (k + 1) h1 1 (by show (k + 1) % 4 = 1; omega),
    tileJ_eq_of_mod (k + 1 + 1) h2 2 (by show (k + 1 + 1) % 4 = 2; omega),
    tileJ_eq_of_mod (k + 1 + 1 + 1) h3 3 (by show (k + 1 + 1 + 1) % 4 = 3; omega)]
  rfl

/-- The block stored at a last point, entry by entry. -/
theorem outAt_apply (c : Dev nD) (t : Fin cfg0.N) (h3 : t.val % 4 = 3) (r : Fin 1024) (d : Fin 16) :
    outAt m c t (ix2 r d)
      = Cert.Spec.outK (Cert.Spec.rows (Xarr m c)) (Cert.Spec.vec (Marr m c)) (Cert.Spec.tj (tileI t) r) d := by
  obtain ⟨tv, ht⟩ := t
  obtain ⟨k, rfl⟩ : ∃ k, tv = k + 1 + 1 + 1 := ⟨tv - 3, by have : tv % 4 = 3 := h3; omega⟩
  have hk : k % 4 = 0 := by have : (k + 1 + 1 + 1) % 4 = 3 := h3; omega
  have hne : (k + 1 + 1 + 1) % 4 ≠ 0 := by omega
  have e6 : k0_pay6 (xi m c ⟨k + 1 + 1 + 1, ht⟩) (xj m c ⟨k + 1 + 1 + 1, ht⟩) (rsB m c ⟨k + 1 + 1 + 1, ht⟩ hne)
      = rsA m c (k + 1 + 1 + 1) ht := by
    rw [← rsStep_eq]
    exact (rsA_step m c ⟨k + 1 + 1 + 1, ht⟩ hne _).symm
  have e7 : k0_pay1 (k0_pay7 (xi m c ⟨k + 1 + 1 + 1, ht⟩) (xj m c ⟨k + 1 + 1 + 1, ht⟩) (ptB m c ⟨k + 1 + 1 + 1, ht⟩ hne))
      = ptA m c (k + 1 + 1 + 1) ht := by
    rw [← ptStep_eq]
    exact (ptA_step m c ⟨k + 1 + 1 + 1, ht⟩ hne _).symm
  unfold outAt
  rw [dif_neg hne, outLast_eq, e6, e7, PayVal.pay2_apply, rsA_last_apply m c k ht hk, ptA_last_apply m c k ht hk,
    mub_apply, xi_apply]
  rfl

end Cert.KernelIdeal.Hand

end
-- ==== Proof.KValue.lean ====
/-
  The result array after the run (at the ideal values). The output window's blocks are written back at the last
  point of each row tile, block I of the array by point 4·I + 3; each such block is, entry by entry, the kernel's
  closed form at its particles (the accumulators unrolled over the row tile's four points); the four blocks tile the
  array. So the array ends as `Cert.Spec.outK` of the launch arrays' rows, at every index.
-/
import proofs.«151449_j48387101557205_1_alg».proof.Proof.KLaunch
import proofs.«151449_j48387101557205_1_alg».proof.Proof.KAcc
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The Stein direction of the launch arrays, as the kernel computes it, as one array. -/
def phiArr (c : Dev nD) : FVec Ideal S4096x16 .f32 :=
  fun i => Cert.Spec.outK (Cert.Spec.rows (Xarr m c)) (Cert.Spec.vec (Marr m c)) (i 0) (i 1)

/-- The output window's block index at point `t`: row tile t / 4, the one column block. -/
theorem outIdx : ∀ t : Fin cfg0.N, win0_3.index t (0 : Fin 2) = t.val / 4 ∧ win0_3.index t (1 : Fin 2) = 0 :=
  (by decide +kernel : ∀ t : Fin grid0.N, _)

/-- What a last point writes back is its block of `phiArr`. -/
theorem stored_eq (c : Dev nD) (t : Fin cfg0.N) (hf : (cfg0.win 3).flush t = true) :
    (dats m 0 c).flushed 3 t = ((cfg0.win 3).blk t).view.read (Elt Ideal) (phiArr m c) := by
  have h3 : t.val % 4 = 3 := (flush0_3 t).mp hf
  show (cfg0.win 3).cut (grid0.coords t) ((dats m 0 c).after 3 t) = _
  rw [after_3]
  funext y
  obtain ⟨r, d, rfl⟩ : ∃ (r : Fin 1024) (d : Fin 16), y = ix2 r d := ⟨y 0, y 1, eq_ix2 y⟩
  show outAt m c t (ix2 r d) = phiArr m c (((cfg0.win 3).blk t).view.emb (ix2 r d))
  rw [outAt_apply m c t h3 r d]
  obtain ⟨e0, e1⟩ := outIdx t
  have hemb : ((cfg0.win 3).blk t).view.emb (ix2 r d) = ix2 (Cert.Spec.tj (tileI t) r) d := by
    funext a; apply Fin.ext
    match a with
    | ⟨0, _⟩ => show win0_3.index t (0 : Fin 2) * 1024 + 1 * r.val = 1024 * (t.val / 4) + r.val; omega
    | ⟨1, _⟩ => show win0_3.index t (1 : Fin 2) * 16 + 1 * d.val = d.val; omega
  rw [hemb]; rfl

/-- An index of the array is in point `t`'s block iff each coordinate is in the block's range on its axis. -/
theorem mem_out_blk (t : Fin cfg0.N) (i : S4096x16.Idx) :
    i ∈ ((cfg0.win 3).blk t).view.set ↔ ∀ a : Fin 2, win0_3.index t a * S1024x16.size a ≤ (i a).val ∧ (i a).val < win0_3.index t a * S1024x16.size a + S1024x16.size a := by
  show i ∈ ((View.whole main_v1).slice (win0_3.rect t)).set ↔ _
  rw [View.set_slice_whole, Rect.mem_set_unit]
  exact Iff.rfl

/-- Every index of the array is in the block some last point writes back: row i is in row tile i / 1024. -/
theorem covered (i : S4096x16.Idx) : ∃ t : Fin cfg0.N, (cfg0.win 3).flush t = true ∧ i ∈ ((cfg0.win 3).blk t).view.set := by
  have hi0 : (i 0).val < 4096 := (i 0).isLt
  have hi1 : (i 1).val < 16 := (i 1).isLt
  have hlt : 4 * ((i 0).val / 1024) + 3 < cfg0.N := lt_of_lt_of_eq (by omega : 4 * ((i 0).val / 1024) + 3 < 16) N_sixteen.symm
  refine ⟨⟨4 * ((i 0).val / 1024) + 3, hlt⟩, (flush0_3 _).mpr (by show (4 * ((i 0).val / 1024) + 3) % 4 = 3; omega), ?_⟩
  rw [mem_out_blk]
  obtain ⟨e0, e1⟩ := outIdx ⟨4 * ((i 0).val / 1024) + 3, hlt⟩
  have e0' : win0_3.index ⟨4 * ((i 0).val / 1024) + 3, hlt⟩ (0 : Fin 2) = (4 * ((i 0).val / 1024) + 3) / 4 := e0
  intro a
  match a with
  | ⟨0, _⟩ =>
    show win0_3.index ⟨4 * ((i 0).val / 1024) + 3, hlt⟩ (0 : Fin 2) * 1024 ≤ (i 0).val
      ∧ (i 0).val < win0_3.index ⟨4 * ((i 0).val / 1024) + 3, hlt⟩ (0 : Fin 2) * 1024 + 1024
    omega
  | ⟨1, _⟩ =>
    show win0_3.index ⟨4 * ((i 0).val / 1024) + 3, hlt⟩ (1 : Fin 2) * 16 ≤ (i 1).val
      ∧ (i 1).val < win0_3.index ⟨4 * ((i 0).val / 1024) + 3, hlt⟩ (1 : Fin 2) * 16 + 16
    omega

/-- The result array after the last point. -/
theorem final_out (c : Dev nD) : (dats m 0 c).arrAt 3 cfg0.N = phiArr m c :=
  (dats m 0 c).arrAt_eq_of_cover 3 (phiArr m c) (fun t hf => stored_eq m c t hf) covered

/-- The run, read: the result array at `phiArr`, both arguments as launched. -/
theorem run_value : θ_run defs (onTc (τ := τ) (main (F := Ideal))) ⟨m, fun _ => 0, ρ⟩ fun r => ∀ c : Dev nD,
      r.2.mem ((c.tc : Thread nD τ).loc main_v1) = phiArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(final_v1 h c).trans (final_out m c), final_arg0 h c, final_arg1 h c⟩) (run_main m ρ)

end Cert.KernelIdeal.Hand

end
-- ==== Proof.Algebra.lean ====
/-
  On finite inputs the kernel's form of the Stein direction and the reference's are one function.

  With every input real, both weights are the coercion of the real number
  `G i j = exp (-(Σ_d (x i d - x j d)²) / 2)`, symmetric in `(i, j)`: the expanded squared distance
  `|x i|² + |x j|² - 2 x i·x j` is the sum of squared differences, which is nonnegative, so the clamp at zero is the
  identity. The four column tiles of 1024 add up to the sum over all 4096 columns. Both forms are then
  `((μ d + x i d) · Σ_j G i j - 2 Σ_j G i j · x j d) / 4096`.
-/
import proofs.«151449_j48387101557205_1_alg».proof.Proof.Spec

noncomputable section

namespace Cert.Proof.Algebra

open Idealize.ShloMosaic Cert.Spec

/-! ## The six literals -/

theorem zero_eq : zero = ((0 : ℝ) : EReal) := by
  unfold zero; simp [Ideal.ofBits, Ideal.ieee]

theorem two_eq : two = ((2 : ℝ) : EReal) := by
  unfold two; simp [Ideal.ofBits, Ideal.ieee, -EReal.coe_mul]; norm_num

theorem negHalf_eq : negHalf = ((-(1 / 2) : ℝ) : EReal) := by
  unfold negHalf; simp [Ideal.ofBits, Ideal.ieee, -EReal.coe_mul]; norm_num

theorem one_eq : one = ((1 : ℝ) : EReal) := by
  unfold one; simp [Ideal.ofBits, Ideal.ieee, -EReal.coe_mul]; norm_num

theorem invN_eq : invN = ((1 / 4096 : ℝ) : EReal) := by
  unfold invN; simp [Ideal.ofBits, Ideal.ieee, -EReal.coe_mul]; norm_num

theorem nF_eq : nF = ((4096 : ℝ) : EReal) := by
  unfold nF; simp [Ideal.ofBits, Ideal.ieee, -EReal.coe_mul]; norm_num

/-! ## Coercions and finite sums -/

/-- The coercion of a finite real sum is the sum of the coercions. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Dividing a real by the literal one leaves it. -/
theorem div_one_coe (r : ℝ) : Ideal.div (r : EReal) one = (r : EReal) := by
  rw [one_eq, Ideal.div_coe one_ne_zero, ← EReal.coe_mul]
  congr 1; norm_num

/-- The four column tiles of 1024 cover the 4096 columns once each. -/
theorem sum_tiles (f : Fin 4096 → ℝ) :
    (((0 + ∑ jj : Fin 1024, f (tj 0 jj)) + ∑ jj : Fin 1024, f (tj 1 jj)) + ∑ jj : Fin 1024, f (tj 2 jj))
      + ∑ jj : Fin 1024, f (tj 3 jj) = ∑ j : Fin 4096, f j := by
  have e : ∑ j : Fin 4096, f j = ∑ p : Fin 4 × Fin 1024, f (tj p.1 p.2) := by
    refine (Fintype.sum_equiv (finProdFinEquiv : Fin 4 × Fin 1024 ≃ Fin 4096) _ _ fun p => ?_).symm
    congr 1
    apply Fin.ext
    simp only [tj, finProdFinEquiv, Equiv.coe_fn_mk]
    omega
  rw [e, Fintype.sum_prod_type, Fin.sum_univ_four, zero_add]

/-! ## The real weight -/

/-- The squared distance of two real rows, and the weight it gives. -/
def sqd (x : Fin 4096 → Fin 16 → ℝ) (i j : Fin 4096) : ℝ := ∑ d : Fin 16, (x i d - x j d) * (x i d - x j d)
def G (x : Fin 4096 → Fin 16 → ℝ) (i j : Fin 4096) : ℝ := Real.exp (sqd x i j * (-(1 / 2)))

theorem sqd_nonneg (x : Fin 4096 → Fin 16 → ℝ) (i j : Fin 4096) : 0 ≤ sqd x i j :=
  Finset.sum_nonneg fun _ _ => mul_self_nonneg _

theorem sqd_symm (x : Fin 4096 → Fin 16 → ℝ) (i j : Fin 4096) : sqd x i j = sqd x j i :=
  Finset.sum_congr rfl fun _ _ => by ring

theorem G_symm (x : Fin 4096 → Fin 16 → ℝ) (i j : Fin 4096) : G x i j = G x j i := by
  unfold G; rw [sqd_symm]

/-- `|x i|² + |x j|² - 2 x i·x j` is the sum of the squared differences. -/
theorem expand (x : Fin 4096 → Fin 16 → ℝ) (i j : Fin 4096) :
    (∑ d : Fin 16, x i d * x i d) + (∑ d : Fin 16, x j d * x j d) - 2 * (∑ d : Fin 16, x i d * x j d) = sqd x i j := by
  unfold sqd
  rw [Finset.mul_sum, ← Finset.sum_add_distrib, ← Finset.sum_sub_distrib]
  exact Finset.sum_congr rfl fun d _ => by ring

/-! ## Each piece of the two forms is the coercion of a real expression -/

section
variable {X : Fin 4096 → Fin 16 → EReal} {x : Fin 4096 → Fin 16 → ℝ} (hx : ∀ i d, X i d = (x i d : EReal))
include hx

theorem nsq_coe (i : Fin 4096) : nsq X i = ((∑ d : Fin 16, x i d * x i d : ℝ) : EReal) := by
  unfold nsq; rw [coe_sum]
  exact Finset.sum_congr rfl fun d _ => by rw [hx, EReal.coe_mul]

theorem dotp_coe (i j : Fin 4096) : dotp X i j = ((∑ d : Fin 16, x i d * x j d : ℝ) : EReal) := by
  unfold dotp; rw [coe_sum]
  exact Finset.sum_congr rfl fun d _ => by rw [hx, hx, EReal.coe_mul]

theorem sqR_coe (i j : Fin 4096) : sqR X i j = (sqd x i j : EReal) := by
  unfold sqR sqd; rw [zero_eq, EReal.coe_zero, zero_add, coe_sum]
  exact Finset.sum_congr rfl fun d _ => by rw [hx, hx, ← EReal.coe_sub, ← EReal.coe_mul]

theorem gramK_coe (i j : Fin 4096) : gramK X i j = (G x i j : EReal) := by
  unfold gramK G
  rw [nsq_coe hx, nsq_coe hx, dotp_coe hx, two_eq, zero_eq, negHalf_eq, ← EReal.coe_add, ← EReal.coe_mul,
    ← EReal.coe_sub, expand, max_eq_left (EReal.coe_le_coe_iff.2 (sqd_nonneg x i j)), ← EReal.coe_mul, Ideal.exp_coe]

theorem gramR_coe (i j : Fin 4096) : gramR X i j = (G x i j : EReal) := by
  unfold gramR G
  rw [sqR_coe hx, two_eq, ← EReal.coe_neg, Ideal.div_coe two_ne_zero, ← EReal.coe_mul, Ideal.exp_coe]
  have h : -sqd x i j * (1 / 2) = sqd x i j * (-(1 / 2)) := by ring
  rw [h]

theorem rowsumK_coe (i : Fin 4096) : rowsumK X i = ((∑ j : Fin 4096, G x i j : ℝ) : EReal) := by
  rw [← sum_tiles]; unfold rowsumK rowTile
  simp only [gramK_coe hx, ← coe_sum, zero_eq, ← EReal.coe_add]

theorem partK_coe (i : Fin 4096) (d : Fin 16) : partK X i d = ((∑ j : Fin 4096, G x i j * x j d : ℝ) : EReal) := by
  rw [← sum_tiles (fun j => G x i j * x j d)]; unfold partK partTile
  simp only [gramK_coe hx, hx, ← EReal.coe_mul, ← coe_sum, zero_eq, ← EReal.coe_add]

theorem scoreTermR_coe {μ : Fin 16 → EReal} {m : Fin 16 → ℝ} (hm : ∀ d, μ d = (m d : EReal)) (i : Fin 4096) (d : Fin 16) :
    scoreTermR X μ i d = ((∑ j : Fin 4096, G x i j * (-(x j d - m d)) : ℝ) : EReal) := by
  unfold scoreTermR
  simp only [gramR_coe hx, hx, hm, ← EReal.coe_sub, ← EReal.coe_neg, ← EReal.coe_mul, ← coe_sum]

theorem gradTermR_coe (i : Fin 4096) (d : Fin 16) :
    gradTermR X i d = ((∑ a : Fin 4096, (-(x a d - x i d)) * G x a i : ℝ) : EReal) := by
  unfold gradTermR
  simp only [gramR_coe hx, hx, ← EReal.coe_sub, div_one_coe, ← EReal.coe_neg, ← EReal.coe_mul, ← coe_sum, zero_eq,
    ← EReal.coe_add, zero_add]

end

/-! ## The identity over the reals -/

theorem real_identity (x : Fin 4096 → Fin 16 → ℝ) (m : Fin 16 → ℝ) (i : Fin 4096) (d : Fin 16) :
    ((m d + x i d * 1) * (∑ j : Fin 4096, G x i j) - (∑ j : Fin 4096, G x i j * x j d) * 2) * (1 / 4096)
      = ((∑ j : Fin 4096, G x i j * (-(x j d - m d))) + ∑ a : Fin 4096, (-(x a d - x i d)) * G x a i) * (1 / 4096) := by
  congr 1
  rw [Finset.mul_sum, Finset.sum_mul, ← Finset.sum_sub_distrib, ← Finset.sum_add_distrib]
  exact Finset.sum_congr rfl fun j _ => by rw [G_symm x j i]; ring

end Cert.Proof.Algebra

namespace Cert.Spec

open Idealize.ShloMosaic Cert.Proof.Algebra

/-- With every coordinate of every particle and of `μ` a real number, `outK` and `outR` agree at every entry. -/
theorem outK_eq_outR (X : Fin 4096 → Fin 16 → EReal) (μ : Fin 16 → EReal)
    (hX : ∀ i d, ∃ r : ℝ, X i d = (r : EReal)) (hμ : ∀ d, ∃ r : ℝ, μ d = (r : EReal)) (i : Fin 4096) (d : Fin 16) :
    outK X μ i d = outR X μ i d := by
  choose x hx using hX
  choose m hm using hμ
  unfold outK outR
  rw [rowsumK_coe hx, partK_coe hx, scoreTermR_coe hx hm, gradTermR_coe hx, hx, hm, one_eq, two_eq, invN_eq, nF_eq,
    Ideal.div_coe (by norm_num : (4096 : ℝ) ≠ 0)]
  simp only [← EReal.coe_mul, ← EReal.coe_add, ← EReal.coe_sub]
  exact congrArg _ (real_identity x m i d)

end Cert.Spec

end
-- ==== Proof.RefValue.lean ====
/-
  The reference program's result, read one operation at a time, is `Cert.Spec.outR` of the argument arrays.

  The program is read from its last operation backwards. Each layout operation (a broadcast) only re-indexes its
  operand, so the composed index maps are first identified, at explicit coordinates, with plain coordinate tuples.
  Then each arithmetic stage is read at such a tuple: the pairwise difference `X a d - X b d`, its square summed
  over `d` (the squared distance), the weight `exp (-(sq) / 2)`, the score factor `-(X j d - μ d)`, the matrix
  product of weights and score factors, the repulsive summand and its sum over the first particle index, and last
  the quotient by 4096.
-/
import proofs.«151449_j48387101557205_1_alg».proof.Proof.Gen.ReferenceIdeal.Read
import proofs.«151449_j48387101557205_1_alg».proof.Proof.Spec
import Idealize.ShloMosaic.Lib.ValueIdx
import Idealize.ShloMosaic.PureOps.Ideal.Laws

noncomputable section

namespace Cert.ReferenceIdeal.RefValue

open Cert.ReferenceIdeal Idealize.ShloMosaic

/-! ## The composed index maps of the layout operations, at explicit coordinates -/

/-- Broadcasting the rows along the second particle axis: entry `(a, b, d)` reads row `a`, coordinate `d`. -/
theorem idx_first (a b : Fin 4096) (d : Fin 16) :
    Read.idx_main_v0 (Read.idx_main_v2 (ValueIdx.ix3 a b d)) = ValueIdx.ix2 a d := by
  funext c; match c with | ⟨0, _⟩ => rfl | ⟨1, _⟩ => rfl

/-- Broadcasting the rows along the first particle axis: entry `(a, b, d)` reads row `b`, coordinate `d`. -/
theorem idx_second (a b : Fin 4096) (d : Fin 16) :
    Read.idx_main_v1 (Read.idx_main_v3 (ValueIdx.ix3 a b d)) = ValueIdx.ix2 b d := by
  funext c; match c with | ⟨0, _⟩ => rfl | ⟨1, _⟩ => rfl

/-- The `k`-th summand of the squared distance of `(a, b)` sits at `(a, b, k)`. -/
theorem idx_sq (a b : Fin 4096) (k : Fin 16) :
    Read.idx_main_v6 (ValueIdx.ix2 a b) k = ValueIdx.ix3 a b k := by
  funext c; match c with | ⟨0, _⟩ => rfl | ⟨1, _⟩ => rfl | ⟨2, _⟩ => rfl

/-- Broadcasting `μ` over the particles: entry `(j, d)` reads coordinate `d`. -/
theorem idx_mu (j : Fin 4096) (d : Fin 16) :
    Read.idx_main_v11 (Read.idx_main_v12 (ValueIdx.ix2 j d)) = ValueIdx.ix1 d := by
  funext c; match c with | ⟨0, _⟩ => rfl

/-- The matrix product's `k`-th term at `(i, d)`: weight `(i, k)` times score factor `(k, d)`. -/
theorem idx_dot_left (i : Fin 4096) (d : Fin 16) (k : Fin 4096) :
    Read.lidx_main_v15 (ValueIdx.ix2 i d) k = ValueIdx.ix2 i k := by
  funext c; match c with | ⟨0, _⟩ => rfl | ⟨1, _⟩ => rfl

theorem idx_dot_right (i : Fin 4096) (d : Fin 16) (k : Fin 4096) :
    Read.ridx_main_v15 (ValueIdx.ix2 i d) k = ValueIdx.ix2 k d := by
  funext c; match c with | ⟨0, _⟩ => rfl | ⟨1, _⟩ => rfl

/-- Broadcasting the weights over the coordinates: entry `(a, b, d)` reads weight `(a, b)`. -/
theorem idx_weight (a b : Fin 4096) (d : Fin 16) :
    Read.idx_main_v19 (Read.idx_main_v20 (ValueIdx.ix3 a b d)) = ValueIdx.ix2 a b := by
  funext c; match c with | ⟨0, _⟩ => rfl | ⟨1, _⟩ => rfl

/-- The `k`-th summand of the repulsive term at `(i, d)` sits at `(k, i, d)`: the sum runs over the FIRST particle index. -/
theorem idx_grad (i : Fin 4096) (d : Fin 16) (k : Fin 4096) :
    Read.idx_main_v22 (ValueIdx.ix2 i d) k = ValueIdx.ix3 k i d := by
  funext c; match c with | ⟨0, _⟩ => rfl | ⟨1, _⟩ => rfl | ⟨2, _⟩ => rfl

/-! ## The stages, at explicit coordinates -/

/-- The pairwise difference at `(a, b, d)` is `X a d - X b d`. -/
theorem diff_at (x0 : FVec Ideal S4096x16 .f32) (a b : Fin 4096) (d : Fin 16) :
    Read.val_main_v4 (F := Ideal) x0 (ValueIdx.ix3 a b d) = Cert.Spec.rows x0 a d - Cert.Spec.rows x0 b d := by
  rw [Read.val_main_v4_apply, Read.val_main_v2_apply, Read.val_main_v0_apply, Read.val_main_v3_apply,
    Read.val_main_v1_apply, idx_first, idx_second]
  rfl

/-- The squared distance at `(a, b)`: the initial value plus the sum over `d` of the squared differences. -/
theorem sq_at (x0 : FVec Ideal S4096x16 .f32) (a b : Fin 4096) :
    Read.val_main_v6 (F := Ideal) x0 (ValueIdx.ix2 a b) = Cert.Spec.sqR (Cert.Spec.rows x0) a b := by
  rw [Read.val_main_v6_apply, Read.val_main_cst_apply, Ideal.ofBits_def]
  unfold Cert.Spec.sqR Cert.Spec.zero
  refine congrArg (_ + ·) (Finset.sum_congr rfl fun k _ => ?_)
  rw [idx_sq, Read.val_main_v5_apply, diff_at, Ideal.mulf_def]

/-- The weight at `(a, b)`: the exponential of minus the squared distance over two. -/
theorem gram_at (x0 : FVec Ideal S4096x16 .f32) (a b : Fin 4096) :
    Read.val_main_v10 (F := Ideal) x0 (ValueIdx.ix2 a b) = Cert.Spec.gramR (Cert.Spec.rows x0) a b := by
  rw [Read.val_main_v10_apply, Read.val_main_v9_apply, Read.val_main_v7_apply, Read.val_main_v8_apply,
    Read.val_main_cst_0_apply, sq_at, Ideal.hostUnary_exp_def, Ideal.hostDivf_def, Ideal.hostNegf_def,
    Ideal.negf_def, Ideal.ofBits_def]
  rfl

/-- The score factor at `(j, d)`: `-(X j d - μ d)`. -/
theorem score_at (x0 : FVec Ideal S4096x16 .f32) (x1 : FVec Ideal S16 .f32) (j : Fin 4096) (d : Fin 16) :
    Read.val_main_v14 (F := Ideal) x0 x1 (ValueIdx.ix2 j d) = -(Cert.Spec.rows x0 j d - Cert.Spec.vec x1 d) := by
  rw [Read.val_main_v14_apply, Read.val_main_v13_apply, Read.val_main_v12_apply, Read.val_main_v11_apply, idx_mu,
    Ideal.hostNegf_def, Ideal.negf_def, Ideal.subf_def]
  rfl

/-- The matrix product of the weights with the score factors at `(i, d)` is the score term. -/
theorem scoreTerm_at (x0 : FVec Ideal S4096x16 .f32) (x1 : FVec Ideal S16 .f32) (i : Fin 4096) (d : Fin 16) :
    Read.val_main_v15 (F := Ideal) x0 x1 (ValueIdx.ix2 i d)
      = Cert.Spec.scoreTermR (Cert.Spec.rows x0) (Cert.Spec.vec x1) i d := by
  rw [Read.val_main_v15_apply]
  unfold Cert.Spec.scoreTermR
  refine Finset.sum_congr rfl fun k _ => ?_
  rw [idx_dot_left, idx_dot_right, gram_at, score_at]

/-- The repulsive summand at `(a, i, d)`: `-((X a d - X i d) / 1)` times the weight `(a, i)`. -/
theorem gradSummand_at (x0 : FVec Ideal S4096x16 .f32) (a i : Fin 4096) (d : Fin 16) :
    Read.val_main_v21 (F := Ideal) x0 (ValueIdx.ix3 a i d)
      = (-(Ideal.div (Cert.Spec.rows x0 a d - Cert.Spec.rows x0 i d) Cert.Spec.one))
          * Cert.Spec.gramR (Cert.Spec.rows x0) a i := by
  rw [Read.val_main_v21_apply, Read.val_main_v18_apply, Read.val_main_v17_apply, Read.val_main_v16_apply,
    Read.val_main_cst_1_apply, Read.val_main_v20_apply, Read.val_main_v19_apply, idx_weight, gram_at, diff_at,
    Ideal.mulf_def, Ideal.hostNegf_def, Ideal.negf_def, Ideal.hostDivf_def, Ideal.ofBits_def]
  rfl

/-- The repulsive term at `(i, d)`: the initial value plus the sum over the first particle index. -/
theorem gradTerm_at (x0 : FVec Ideal S4096x16 .f32) (i : Fin 4096) (d : Fin 16) :
    Read.val_main_v22 (F := Ideal) x0 (ValueIdx.ix2 i d) = Cert.Spec.gradTermR (Cert.Spec.rows x0) i d := by
  rw [Read.val_main_v22_apply, Read.val_main_cst_2_apply, Ideal.ofBits_def]
  unfold Cert.Spec.gradTermR Cert.Spec.zero
  refine congrArg (_ + ·) (Finset.sum_congr rfl fun k _ => ?_)
  rw [idx_grad, gradSummand_at]

/-- The last stage of the reference at entry `(i, d)` is the reference's closed form of the arguments' rows. -/
theorem ref_eq (x0 : FVec Ideal S4096x16 .f32) (x1 : FVec Ideal S16 .f32) (i : Fin 4096) (d : Fin 16) :
    Cert.ReferenceIdeal.Read.val_main_v25 (F := Ideal) x0 x1 (ValueIdx.ix2 i d)
      = Cert.Spec.outR (Cert.Spec.rows x0) (Cert.Spec.vec x1) i d := by
  rw [Read.val_main_v25_apply, Read.val_main_v23_apply, Read.val_main_v24_apply, Read.val_main_cst_3_apply,
    scoreTerm_at, gradTerm_at, Ideal.hostDivf_def, Ideal.addf_def, Ideal.ofBits_def]
  rfl

end Cert.ReferenceIdeal.RefValue

end
-- ==== Proof.Finite.lean ====
/-
  The precondition "every input is finite", decoded: every entry of both argument arrays is a real number.

  The printed predicate is the conjunction of two "all" reductions by `and`, one per argument, of the
  elementwise test |a| < +∞ (the pattern 0x7F800000 is +∞). A conjunction that is 1 has both conjuncts 1;
  an `and`-reduction over every axis that is 1 met a 1 at every index; and |a| = max a (-a) < ⊤ on the
  extended reals rules out a = ⊤ and a = ⊥ (there max a (-a) = ⊤), leaving a the coercion of a real.
-/
import proofs.«151449_j48387101557205_1_alg».proof.Pre_finite_inputs
import proofs.«151449_j48387101557205_1_alg».proof.Proof.Gen.Pre_finite_inputs
import proofs.«151449_j48387101557205_1_alg».proof.Proof.Spec
import Idealize.ShloMosaic.Lib.ReduceAll

noncomputable section

namespace Cert.Proof.Finite

open Idealize.ShloMosaic

/-- The f32 pattern 0x7F800000 (sign 0, exponent all ones, fraction 0) denotes +∞. -/
theorem inf_bits : Ideal.ofBits .f32 0x7F800000#32 = (⊤ : EReal) := by
  simp [Ideal.ofBits, Ideal.ieee]

/-- One entry: if the ordered comparison |a| < +∞ holds, then a is neither infinity, hence a real. -/
theorem real_of_abs_lt (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def] at h
  change Ideal.cmp .olt (max a (-a)) (Ideal.ofBits .f32 0x7F800000#32) = 1#1 at h
  rw [inf_bits] at h
  induction a using EReal.rec with
  | bot => simp [Ideal.cmp] at h   -- max ⊥ (-⊥) = ⊤, and ⊤ < ⊤ fails
  | coe r => exact ⟨r, rfl⟩
  | top => simp [Ideal.cmp] at h   -- max ⊤ (-⊤) = ⊤, and ⊤ < ⊤ fails

/-- If the printed predicate is all ones on `x` and `mu`, every entry of each is (the coercion of) a real. -/
theorem real_of_pre [Cert.Pre_finite_inputs.Facts] (x : FVec Ideal ⟨2, ![4096, 16]⟩ .f32) (mu : FVec Ideal ⟨1, ![16]⟩ .f32)
    (h : Cert.Pre_finite_inputs.fn (F := Ideal) x mu = fun _ => 1#1) :
    (∀ i d, ∃ r : ℝ, Cert.Spec.rows x i d = (r : EReal)) ∧ (∀ d, ∃ r : ℝ, Cert.Spec.vec mu d = (r : EReal)) := by
  -- the rank-0 result has a single index
  haveI : Subsingleton Cert.Pre_finite_inputs.S_.Idx := ⟨fun a b => funext fun d => d.elim0⟩
  have h0 := congrFun h ValueIdx.ix0
  dsimp only [Cert.Pre_finite_inputs.fn] at h0
  -- the conjunction is 1, so each of the two reductions is 1
  obtain ⟨h1, h2⟩ := IntOp.andi_eq_one.1 h0
  constructor
  · intro i d
    -- the reduction over both axes of `x`'s test is 1, so the test holds at (i, d)
    exact real_of_abs_lt _ (Host.reduce_andi_all _ _ _ _ _ h1 (ValueIdx.ix2 i d))
  · intro d
    -- the reduction over `mu`'s axis is 1, so the test holds at d
    exact real_of_abs_lt _ (Host.reduce_andi_all _ _ _ _ _ h2 (ValueIdx.ix1 d))

end Cert.Proof.Finite

end
-- ==== Proof.lean ====
/- The proof of `Cert.Claim`: the kernel computes the Stein variational direction of 4096 particles in R^16 under an
   RBF kernel of unit length scale and a Gaussian score centred at μ, tile by tile; the reference computes it from the
   pairwise differences. The two frames of the kernel (word-level and idealized) are one hand proof read at two
   instances: a pipeline of 4 × 4 grid points whose two input windows share the particles' array. The reference's
   frame is its run. `preserves` is trivial (the idealization rewrote nothing). `algebraic`: the idealized kernel's
   result array is `Cert.Spec.outK` of the launch arrays (the value of the run), the reference's result is
   `Cert.Spec.outR` of them (its run read stage by stage), and on finite inputs the two closed forms agree: the
   expanded squared distance is the sum of squared differences, hence nonnegative and the clamp at zero the
   identity; the weights are symmetric; and the sums distribute over the reals. -/
import proofs.«151449_j48387101557205_1_alg».proof.Defs
import proofs.«151449_j48387101557205_1_alg».proof.Proof.BLaunch
import proofs.«151449_j48387101557205_1_alg».proof.Proof.KValue
import proofs.«151449_j48387101557205_1_alg».proof.Proof.Algebra
import proofs.«151449_j48387101557205_1_alg».proof.Proof.RefValue
import proofs.«151449_j48387101557205_1_alg».proof.Proof.Finite
import proofs.«151449_j48387101557205_1_alg».proof.Proof.Gen.Kernel
import proofs.«151449_j48387101557205_1_alg».proof.Proof.Gen.KernelIdeal
import proofs.«151449_j48387101557205_1_alg».proof.Proof.Gen.ReferenceIdeal
import proofs.«151449_j48387101557205_1_alg».proof.Proof.Gen.ReferenceIdeal.Run
import proofs.«151449_j48387101557205_1_alg».proof.Proof.Gen.ReferenceIdeal.Read
import proofs.«151449_j48387101557205_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result array: the kernel's closed form of the launch arrays, which on
    finite inputs is the reference's. -/
theorem algebraic : Cert.algebraic_KernelIdeal_ReferenceIdeal := by
  intro m ρ m' ρ' hpre hagree
  refine ⟨fun c => Cert.KernelIdeal.Hand.phiArr m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v25_eq]
  obtain ⟨hX, hμ⟩ := Cert.Proof.Finite.real_of_pre _ _ (hpre c)
  funext i
  obtain ⟨a, d, rfl⟩ : ∃ (a : Fin 4096) (d : Fin 16), i = ValueIdx.ix2 a d := ⟨i 0, i 1, ValueIdx.eq_ix2 i⟩
  rw [Cert.ReferenceIdeal.RefValue.ref_eq]
  exact (Cert.Spec.outK_eq_outR _ _ hX hμ a d).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
